-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v74) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S64x1 .f32) (main_arg13 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg12
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg13
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg8 : FVec F S64x128 .f32) (main_arg9 : FVec F S128 .f32) (main_arg10 : FVec F S128x64 .f32) (main_arg11 : FVec F S64 .f32) (main_arg12 : FVec F S64x1 .f32) (main_arg13 : FVec F S1 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg10
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_v48 main_v49 main_v50

def fn_part1 {F : FTy → Type} [FloatOps F] (main_arg5 : FVec F S128x64 .f32) (main_arg6 : FVec F S64 .f32) (main_arg7 : FVec F S128x64 .f32) (main_arg8 : FVec F S64x128 .f32) (main_arg9 : FVec F S128 .f32) (main_arg10 : FVec F S128x64 .f32) (main_arg11 : FVec F S64 .f32) (main_arg12 : FVec F S64x1 .f32) (main_arg13 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) (main_arg8 : FVec F S64x128 .f32) (main_arg9 : FVec F S128 .f32) (main_arg10 : FVec F S128x64 .f32) (main_arg11 : FVec F S64 .f32) (main_arg12 : FVec F S64x1 .f32) (main_arg13 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_arg10 main_arg11 main_arg12 main_arg13 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S2000x64 : Shape := ⟨2, ![2000, 64]⟩
abbrev S2000x1 : Shape := ⟨2, ![2000, 1]⟩
abbrev S2000x128 : Shape := ⟨2, ![2000, 128]⟩
abbrev S1600000x128 : Shape := ⟨2, ![1600000, 128]⟩
abbrev S1x64 : Shape := ⟨2, ![1, 64]⟩
abbrev S1x1 : Shape := ⟨2, ![1, 1]⟩

abbrev nBuf : Space → Nat
  | .hbm => 65
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .f32⟩
  | .hbm, ⟨19, _⟩ => ⟨S1600000, .f32⟩
  | .hbm, ⟨20, _⟩ => ⟨S_, .f32⟩
  | .hbm, ⟨21, _⟩ => ⟨S100000, .f32⟩
  | .hbm, ⟨22, _⟩ => ⟨S1600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x64, .f32⟩
  | .hbm, ⟨40, _⟩ => ⟨S_, .f32⟩
  | .hbm, ⟨41, _⟩ => ⟨S100000x64, .f32⟩
  | .hbm, ⟨42, _⟩ => ⟨S1600000x1, .i32⟩
  | .hbm, ⟨43, _⟩ => ⟨S100000x64, .f32⟩
  | .hbm, ⟨44, _⟩ => ⟨S1x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S1x64, .f32⟩
  | .hbm, ⟨60, _⟩ => ⟨S1x128, .f32⟩
  | .hbm, ⟨61, _⟩ => ⟨S1x64, .f32⟩
  | .hbm, ⟨62, _⟩ => ⟨S1x1, .f32⟩
  | .hbm, ⟨63, _⟩ => ⟨S100000x64, .f32⟩
  | .hbm, ⟨64, _⟩ => ⟨S100000x1, .f32⟩
  | .local _ .vmem, ⟨0, _⟩ => ⟨S2000x64, .f32⟩
  | .local _ .vmem, ⟨1, _⟩ => ⟨S2000x64, .f32⟩
  | .local _ .vmem, ⟨2, _⟩ => ⟨S2000x1, .f32⟩
  | .local _ .vmem, ⟨3, _⟩ => ⟨S2000x1, .f32⟩
  | .local _ .vmem, ⟨4, _⟩ => ⟨S2000x64, .f32⟩
  | .local _ .vmem, ⟨5, _⟩ => ⟨S2000x64, .f32⟩
  | .local _ .vmem, ⟨6, _⟩ => ⟨S64x128, .f32⟩
  | .local _ .vmem, ⟨7, _⟩ => ⟨S64x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x1, .f32⟩
  | .local _ .vmem, ⟨14, _⟩ => ⟨S2000x1, .f32⟩
  | .local _ .vmem, ⟨15, _⟩ => ⟨S2000x128, .f32⟩
  | .local _ .vmem, ⟨16, _⟩ => ⟨S2000x128, .f32⟩
  | .local _ .vmem, ⟨17, _⟩ => ⟨S128x64, .f32⟩
  | .local _ .vmem, ⟨18, _⟩ => ⟨S128x64, .f32⟩
  | .local _ .vmem, ⟨19, _⟩ => ⟨S1x64, .f32⟩
  | .local _ .vmem, ⟨20, _⟩ => ⟨S64x128, .f32⟩
  | .local _ .vmem, ⟨21, _⟩ => ⟨S1x128, .f32⟩
  | .local _ .vmem, ⟨22, _⟩ => ⟨S128x64, .f32⟩
  | .local _ .vmem, ⟨23, _⟩ => ⟨S1x64, .f32⟩
  | .local _ .vmem, ⟨24, _⟩ => ⟨S64x1, .f32⟩
  | .local _ .vmem, ⟨25, _⟩ => ⟨S1x1, .f32⟩
  | .local _ .vmem, ⟨26, _⟩ => ⟨S2000x64, .f32⟩
  | .local _ .vmem, ⟨27, _⟩ => ⟨S2000x64, .f32⟩
  | .local _ .vmem, ⟨28, _⟩ => ⟨S2000x1, .f32⟩
  | .local _ .vmem, ⟨29, _⟩ => ⟨S2000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_cst_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c : Ref sig .tc := ⟨.hbm, 31, rfl⟩
abbrev main_v13 : Ref sig .tc := ⟨.hbm, 32, rfl⟩
abbrev main_v14 : Ref sig .tc := ⟨.hbm, 33, rfl⟩
abbrev main_c_3 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_c_5 : Ref sig .tc := ⟨.hbm, 46, rfl⟩
abbrev main_v25 : Ref sig .tc := ⟨.hbm, 47, rfl⟩
abbrev main_v26 : Ref sig .tc := ⟨.hbm, 48, rfl⟩
abbrev main_c_6 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39_0 : Ref sig .tc := ⟨.hbm, 63, rfl⟩
abbrev main_v39_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg9_0 : Ref sig .tc := ⟨.vmem, 23, rfl⟩
abbrev cc1_stg10_0 : Ref sig .tc := ⟨.vmem, 24, rfl⟩
abbrev cc1_stg11_0 : Ref sig .tc := ⟨.vmem, 25, rfl⟩
abbrev cc1_stg12_0 : Ref sig .tc := ⟨.vmem, 26, rfl⟩
abbrev cc1_stg12_1 : Ref sig .tc := ⟨.vmem, 27, rfl⟩
abbrev cc1_stg13_0 : Ref sig .tc := ⟨.vmem, 28, rfl⟩
abbrev cc1_stg13_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem9_0 : DmaSem sig := 23
abbrev cc1_sem10_0 : DmaSem sig := 24
abbrev cc1_sem11_0 : DmaSem sig := 25
abbrev cc1_sem12_0 : DmaSem sig := 26
abbrev cc1_sem12_1 : DmaSem sig := 27
abbrev cc1_sem13_0 : DmaSem sig := 28
abbrev cc1_sem13_1 : DmaSem sig := 29

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S2000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S2000x1 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S128_S1x128 : S128.ShapeCasts S1x128
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S64_S1x64 : S64.ShapeCasts S1x64
  shapeCasts_S1_S1x1 : S1.ShapeCasts S1x1
  shapeCasts_S2000x128_S2000x128 : S2000x128.ShapeCasts S2000x128
  broadcasts_S2000x1_S2000x128 : S2000x1.Broadcasts S2000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x128_S2000x128_1_0_0_1_n_n_wf : DotDims.WF S2000x64 S64x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  dot_S2000x64_S64x1_S2000x1_1_0_0_1_n_n_wf : DotDims.WF S2000x64 S64x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x64.size a ≤ S100000x64.size a
  hwx0_2 : ∀ i : grid0.Coords, EltTy.bits .f32 = 32 ∨ (Rect.block (s := S100000x64) S2000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S100000x128.size a
  hwx0_6 : ∀ i : grid0.Coords, EltTy.bits .f32 = 32 ∨ (Rect.block (s := S100000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x1.size a ≤ S64x1.size a
  hwx1_10 : ∀ i : grid1.Coords, EltTy.bits .f32 = 32 ∨ (Rect.block (s := S64x1) S64x1.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x1.size a ≤ S1x1.size a
  hwx1_11 : ∀ i : grid1.Coords, EltTy.bits .f32 = 32 ∨ (Rect.block (s := S1x1) S1x1.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S2000x64.size a ≤ S100000x64.size a
  hwx1_12 : ∀ i : grid1.Coords, EltTy.bits .f32 = 32 ∨ (Rect.block (s := S100000x64) S2000x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x1.size a ≤ S100000x1.size a
  hwx1_13 : ∀ i : grid1.Coords, EltTy.bits .f32 = 32 ∨ (Rect.block (s := S100000x1) S2000x1.size (cc1_transform_13 i) (hinb1_13 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg10) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg12) S64x1.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v38) S1x1.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v39_0) S2000x64.size cc1_transform_12 reads1_12 true false 2 stage1_12 sem1_12
    hrank1 hreads1_12 hinb1_12 nbuf1_12 (Memref.isWhole_whole _) hwx1_12 hstage1_12

abbrev win1_13 : Pipeline.Window sig grid1 :=
  Pipeline.Window.ofSpec (Memref.whole main_v39_1) S2000x1.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S1x1 : Shape := ⟨2, ![1, 1]⟩

abbrev nBuf : Space → Nat
  | .hbm => 109
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x128, .f32⟩
  | .hbm, ⟨9, _⟩ => ⟨S128, .f32⟩
  | .hbm, ⟨10, _⟩ => ⟨S128x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S1600000, .f32⟩
  | .hbm, ⟨33, _⟩ => ⟨S_, .f32⟩
  | .hbm, ⟨34, _⟩ => ⟨S100000, .f32⟩
  | .hbm, ⟨35, _⟩ => ⟨S1600000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S100000x1, .f32⟩
  | .hbm, ⟨41, _⟩ => ⟨S100000x64, .f32⟩
  | .hbm, ⟨42, _⟩ => ⟨S100000x64, .f32⟩
  | .hbm, ⟨43, _⟩ => ⟨S100000x128, .f32⟩
  | .hbm, ⟨44, _⟩ => ⟨S1x128, .f32⟩
  | .hbm, ⟨45, _⟩ => ⟨S100000x128, .f32⟩
  | .hbm, ⟨46, _⟩ => ⟨S100000x128, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S100000x128, .f32⟩
  | .hbm, ⟨84, _⟩ => ⟨S1x128, .f32⟩
  | .hbm, ⟨85, _⟩ => ⟨S100000x128, .f32⟩
  | .hbm, ⟨86, _⟩ => ⟨S100000x128, .f32⟩
  | .hbm, ⟨87, _⟩ => ⟨S_, .f32⟩
  | .hbm, ⟨88, _⟩ => ⟨S100000x128, .f32⟩
  | .hbm, ⟨89, _⟩ => ⟨S100000x128, .f32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x1, .f32⟩
  | .hbm, ⟨98, _⟩ => ⟨S1x1, .f32⟩
  | .hbm, ⟨99, _⟩ => ⟨S100000x1, .f32⟩
  | .hbm, ⟨100, _⟩ => ⟨S100000x1, .f32⟩
  | .hbm, ⟨101, _⟩ => ⟨S100000x1, .f32⟩
  | .hbm, ⟨102, _⟩ => ⟨S100000x1, .f32⟩
  | .hbm, ⟨103, _⟩ => ⟨S_, .f32⟩
  | .hbm, ⟨104, _⟩ => ⟨S100000x1, .f32⟩
  | .hbm, ⟨105, _⟩ => ⟨S100000x1, .f32⟩
  | .hbm, ⟨106, _⟩ => ⟨S_, .f32⟩
  | .hbm, ⟨107, _⟩ => ⟨S100000x1, .f32⟩
  | .hbm, ⟨108, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_3 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_call0_cst : Ref sig .tc := ⟨.hbm, 49, rfl⟩
abbrev main_call0_v0 : Ref sig .tc := ⟨.hbm, 50, rfl⟩
abbrev main_v29 : Ref sig .tc := ⟨.hbm, 51, rfl⟩
abbrev main_c_4 : Ref sig .tc := ⟨.hbm, 52, rfl⟩
abbrev main_v30 : Ref sig .tc := ⟨.hbm, 53, rfl⟩
abbrev main_v31 : Ref sig .tc := ⟨.hbm, 54, rfl⟩
abbrev main_c_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_6 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_9 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_call1_cst : Ref sig .tc := ⟨.hbm, 87, rfl⟩
abbrev main_call1_v0 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_call2_cst : Ref sig .tc := ⟨.hbm, 94, rfl⟩
abbrev main_call2_v0 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_10 : Ref sig .tc := ⟨.hbm, 103, rfl⟩
abbrev main_v71 : Ref sig .tc := ⟨.hbm, 104, rfl⟩
abbrev main_v72 : Ref sig .tc := ⟨.hbm, 105, rfl⟩
abbrev main_cst_11 : Ref sig .tc := ⟨.hbm, 106, rfl⟩
abbrev main_v73 : Ref sig .tc := ⟨.hbm, 107, rfl⟩
abbrev main_v74 : Ref sig .tc := ⟨.hbm, 108, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.Spec.lean ====
/-
  A two-layer mean-aggregating graph convolution followed by a three-layer perceptron with a logistic output, read over
  the extended reals, entry by entry.

  One convolution layer maps node features x (R × K) and neighbour sums a (R × K: row i is the sum of the features of
  the nodes with an edge into i) to an R × N array. With m(i) = max(deg(i), 1) the clipped in-degree, the entry is

      ∑ q, (a(i,q) / m(i)) · Wl(q,j)  +  b(j)  +  ∑ q, x(i,q) · Wr(q,j).

  One program divides each neighbour sum by m(i) and adds the bias before the second product (`convR`); the other
  multiplies by a precomputed column d(i) = 1 / m(i), and adds the bias, held as a 1 × N row, last (`convK`). The two
  agree on every extended real as soon as m(i) ≠ 0: division by a nonzero m is multiplication by m⁻¹, 1 / m is
  1 · m⁻¹ = m⁻¹, and addition of extended reals is commutative and associative. No finiteness is used: nothing is
  distributed over a sum and nothing is cancelled. Since m(i) is a maximum with 1 it is at least 1, so never 0.

  The logistic function of one program is the single operation 1 / (1 + e^(-z)); the other spells the same quotient out
  with the float pattern of 1.0, which denotes the real number 1.
-/
import Idealize.ShloMosaic.PureOps.Ideal
import Idealize.ShloMosaic.PureOps.Ideal.Laws
import Idealize.ShloMosaic.Lib.ValueIdx

noncomputable section

open scoped BigOperators

namespace Cert.Sage

open Idealize.ShloMosaic Idealize.ShloMosaic.ValueIdx

/-- An R × C array of extended reals. -/
abbrev Mat (R C : Nat) : Type := FVec Ideal (⟨2, ![R, C]⟩ : Shape) .f32
/-- A length-R array of extended reals. -/
abbrev Vc (R : Nat) : Type := FVec Ideal (⟨1, ![R]⟩ : Shape) .f32

variable {R K N : Nat}

/-! ## The float patterns of 0.0 and 1.0 -/

/-- The pattern of +0.0 denotes 0. -/
theorem zero_val : Ideal.ofBits .f32 0x00000000#32 = (0 : EReal) := Ideal.ofBits_zero_f32

/-- The pattern 0x3F800000 (sign 0, biased exponent 127, fraction 0) denotes 1. -/
theorem one_val : Ideal.ofBits .f32 0x3F800000#32 = (1 : EReal) := by
  simp [Ideal.ofBits, Ideal.ieee, -EReal.coe_mul]; norm_num

/-! ## The convolution layer, in its two arrangements -/

/-- The layer with the mean folded in as a product with the reciprocal column `d`, the bias a 1 × N row added last. -/
def convK (a : Mat R K) (d : Mat R 1) (x : Mat R K) (Wl Wr : Mat K N) (b : Mat 1 N) (i : Fin R) (j : Fin N) : EReal :=
  ((∑ q : Fin K, (a (ix2 i q) * d (ix2 i 0)) * Wl (ix2 q j)) + ∑ q : Fin K, x (ix2 i q) * Wr (ix2 q j)) + b (ix2 0 j)

/-- The layer with each neighbour sum divided by the clipped degree `m`, the bias added before the second product. -/
def convR (a : Mat R K) (m : Vc R) (x : Mat R K) (Wl Wr : Mat K N) (b : Vc N) (i : Fin R) (j : Fin N) : EReal :=
  ((∑ q : Fin K, Ideal.div (a (ix2 i q)) (m (ix1 i)) * Wl (ix2 q j)) + b (ix1 j)) + ∑ q : Fin K, x (ix2 i q) * Wr (ix2 q j)

/-- Multiplying by 1 / m is dividing by m, for every extended real and every m ≠ 0. -/
theorem mul_div_one (a m : EReal) (hm : m ≠ 0) : a * Ideal.div 1 m = Ideal.div a m := by
  unfold Ideal.div
  rw [if_neg hm, if_neg hm, one_mul]

/-- A maximum with 1 is not 0. -/
theorem max_one_ne_zero (x : EReal) : max x 1 ≠ 0 := by
  intro h
  have h1 : (1 : EReal) ≤ max x 1 := le_max_right _ _
  rw [h] at h1
  exact absurd h1 (by norm_num)

/-- The two arrangements of the layer agree where the reciprocal column is 1 / m, m ≠ 0, and the two biases are the same
    numbers. -/
theorem convK_eq_convR (a : Mat R K) (d : Mat R 1) (m : Vc R) (x : Mat R K) (Wl Wr : Mat K N) (bK : Mat 1 N) (bR : Vc N)
    (i : Fin R) (j : Fin N) (hd : d (ix2 i 0) = Ideal.div 1 (m (ix1 i))) (hm : m (ix1 i) ≠ 0)
    (hb : bK (ix2 0 j) = bR (ix1 j)) :
    convK a d x Wl Wr bK i j = convR a m x Wl Wr bR i j := by
  unfold convK convR
  rw [hd, hb]
  have e : ∀ q : Fin K, a (ix2 i q) * Ideal.div 1 (m (ix1 i)) = Ideal.div (a (ix2 i q)) (m (ix1 i)) :=
    fun q => mul_div_one _ _ hm
  simp only [e]
  rw [add_right_comm]

/-! ## An array from its entries -/

/-- The R × N array whose entry (i, j) is `f i j`. -/
def mat (f : Fin R → Fin N → EReal) : Mat R N := fun e => f (e 0) (e 1)

/-- Its entry (i, j). -/
theorem mat_ix2 (f : Fin R → Fin N → EReal) (i : Fin R) (j : Fin N) : mat f (ix2 i j) = f i j := rfl

/-- Every array is the array of its entries. -/
theorem mat_eta (A : Mat R N) : mat (fun i j => A (ix2 i j)) = A :=
  funext fun e => congrArg A (eq_ix2 e).symm

/-! ## A dense layer and the three-layer perceptron -/

/-- Entry (i, j) of A · W plus a bias held as a 1 × N row; A given by its entries. -/
def denseK (A : Fin R → Fin K → EReal) (W : Mat K N) (b : Mat 1 N) (i : Fin R) (j : Fin N) : EReal :=
  (∑ q : Fin K, A i q * W (ix2 q j)) + b (ix2 0 j)

/-- Entry (i, j) of A · W plus a bias held as a length-N array; A given by its entries. -/
def denseR (A : Fin R → Fin K → EReal) (W : Mat K N) (b : Vc N) (i : Fin R) (j : Fin N) : EReal :=
  (∑ q : Fin K, A i q * W (ix2 q j)) + b (ix1 j)

/-- The two dense layers agree when the two biases hold the same numbers. -/
theorem denseK_eq_denseR (A : Fin R → Fin K → EReal) (W : Mat K N) (bK : Mat 1 N) (bR : Vc N)
    (hb : ∀ j : Fin N, bK (ix2 0 j) = bR (ix1 j)) : denseK A W bK = denseR A W bR := by
  funext i j
  unfold denseK denseR
  rw [hb]

/-- The perceptron 64 → 128 → 64 → 1 with rectified hidden layers and a logistic output, biases as 1 × N rows. -/
def mlpK (em : Fin R → Fin 64 → EReal) (W1 : Mat 64 128) (b1 : Mat 1 128) (W2 : Mat 128 64) (b2 : Mat 1 64)
    (W3 : Mat 64 1) (b3 : Mat 1 1) (i : Fin R) (j : Fin 1) : EReal :=
  Ideal.logistic (denseK (fun i q => max (denseK (fun i q => max (denseK em W1 b1 i q) 0) W2 b2 i q) 0) W3 b3 i j)

/-- The same perceptron with biases as length-N arrays. -/
def mlpR (em : Fin R → Fin 64 → EReal) (W1 : Mat 64 128) (b1 : Vc 128) (W2 : Mat 128 64) (b2 : Vc 64)
    (W3 : Mat 64 1) (b3 : Vc 1) (i : Fin R) (j : Fin 1) : EReal :=
  Ideal.logistic (denseR (fun i q => max (denseR (fun i q => max (denseR em W1 b1 i q) 0) W2 b2 i q) 0) W3 b3 i j)

/-- The two perceptrons agree when the biases hold the same numbers. -/
theorem mlpK_eq_mlpR (em : Fin R → Fin 64 → EReal) (W1 : Mat 64 128) (b1K : Mat 1 128) (b1R : Vc 128)
    (W2 : Mat 128 64) (b2K : Mat 1 64) (b2R : Vc 64) (W3 : Mat 64 1) (b3K : Mat 1 1) (b3R : Vc 1)
    (h1 : ∀ j, b1K (ix2 0 j) = b1R (ix1 j)) (h2 : ∀ j, b2K (ix2 0 j) = b2R (ix1 j)) (h3 : ∀ j, b3K (ix2 0 j) = b3R (ix1 j)) :
    mlpK em W1 b1K W2 b2K W3 b3K = mlpR em W1 b1R W2 b2R W3 b3R := by
  funext i j
  unfold mlpK mlpR
  rw [denseK_eq_denseR _ W1 b1K b1R h1, denseK_eq_denseR _ W2 b2K b2R h2, denseK_eq_denseR _ W3 b3K b3R h3]

/-! ## The logistic function -/

/-- The one-operation logistic function is the quotient spelled out with the pattern of 1.0. -/
theorem logistic_eq (z : EReal) :
    Ideal.logistic z = Ideal.div (Ideal.ofBits .f32 0x3F800000#32) (Ideal.ofBits .f32 0x3F800000#32 + Ideal.exp (-z)) := by
  rw [one_val]; rfl

end Cert.Sage
-- ==== Proof.KHost.lean ====
/-
  What the host operations of the kernel program leave in the arrays the two regions are entered with, as functions
  of the program's arguments.

  The host side of the kernel program gathers and scatter-adds exactly as the reference does: the neighbour sums of the
  features, the in-degree (a scatter-add of ones) clipped below at 1, and after the first region the neighbour sums of
  the hidden layer. Each of these is the same term of the arguments as the corresponding stage of the reference, so it
  is stated as that stage. What the kernel program has of its own is the reciprocal column 1 / max(deg, 1), reshaped to
  100000 × 1, and the biases reshaped to 1 × N rows.
-/
import proofs.«135351_j11381663334735_1_alg».proof.Proof.Gen.KernelIdeal.Frame
import proofs.«135351_j11381663334735_1_alg».proof.Proof.Gen.ReferenceIdeal.Read
import proofs.«135351_j11381663334735_1_alg».proof.Proof.Spec
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Host

open Idealize.ShloMosaic Idealize.ShloMosaic.TcCoe Idealize.ShloMosaic.ValueIdx Idealize.SL.Sem Idealize.ShloMosaic.StableHlo
open Cert.KernelIdeal Cert.KernelIdeal.Gen Cert.Sage

variable (m : (ℓ : Loc nD τ sig) → Buf (Elt Ideal) ℓ) (ρ : Dev nD → PrngReg)

/-! ## Region 0's entry -/

/-- The neighbour sums of the node features: the reference's scatter-add of the gathered rows. -/
theorem V1_v22 (c : Dev nD) :
    V1 m ρ c main_v22 = Cert.ReferenceIdeal.Read.val_main_v13 (F := Ideal) (m ((c : Thread nD τ).loc main_arg0)) (m ((c : Thread nD τ).loc main_arg1)) := by
  show StableHlo.after hostOps0 (W0 m ρ c) (Proc.devRef .tc main_v22) = _
  after_results_simp
  rfl

/-- The reciprocal column: 1 over the reference's clipped degree, reshaped to 100000 × 1. -/
theorem V1_v12 (c : Dev nD) :
    V1 m ρ c main_v12 = shapeCast S100000x1 (Host.divf (broadcastInDim S100000 ![] bcast_S_S100000 (constant (F := Ideal) S_ .f32 0x3F800000#32))
      (Cert.ReferenceIdeal.Read.val_main_v19 (F := Ideal) (m ((c : Thread nD τ).loc main_arg1)))) shapeCasts_S100000_S100000x1 := by
  show StableHlo.after hostOps0 (W0 m ρ c) (Proc.devRef .tc main_v12) = _
  after_results_simp
  rfl

/-- The first layer's bias as a 1 × 128 row. -/
theorem V1_v23 (c : Dev nD) :
    V1 m ρ c main_v23 = shapeCast S1x128 (m ((c : Thread nD τ).loc main_arg3)) shapeCasts_S128_S1x128 := by
  show StableHlo.after hostOps0 (W0 m ρ c) (Proc.devRef .tc main_v23) = _
  after_results_simp
  rfl

theorem V1_arg0 (c : Dev nD) : V1 m ρ c main_arg0 = m ((c : Thread nD τ).loc main_arg0) := by
  show StableHlo.after hostOps0 (W0 m ρ c) (Proc.devRef .tc main_arg0) = _
  after_results_simp
theorem V1_arg2 (c : Dev nD) : V1 m ρ c main_arg2 = m ((c : Thread nD τ).loc main_arg2) := by
  show StableHlo.after hostOps0 (W0 m ρ c) (Proc.devRef .tc main_arg2) = _
  after_results_simp
theorem V1_arg4 (c : Dev nD) : V1 m ρ c main_arg4 = m ((c : Thread nD τ).loc main_arg4) := by
  show StableHlo.after hostOps0 (W0 m ρ c) (Proc.devRef .tc main_arg4) = _
  after_results_simp

/-! ## The reciprocal column and the bias rows at an entry -/

/-- A length-a array reshaped to a × 1 reads, at (i, u), the array at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The clipped degree at node i is a maximum with 1. -/
theorem deg_eq (x1 : IVec Cert.ReferenceIdeal.S2x1600000 32) (i : Fin 100000) :
    Cert.ReferenceIdeal.Read.val_main_v19 (F := Ideal) x1 (ix1 i)
      = max (Cert.ReferenceIdeal.Read.val_main_v17 (F := Ideal) x1 (ix1 i)) 1 := by
  rw [Cert.ReferenceIdeal.Read.val_main_v19_apply, Cert.ReferenceIdeal.Read.val_main_v18_apply,
    Cert.ReferenceIdeal.Read.val_main_cst_3_apply, Ideal.ofBits_def, one_val, Ideal.maximumf_def]

/-- So it is never 0. -/
theorem deg_ne (x1 : IVec Cert.ReferenceIdeal.S2x1600000 32) (i : Fin 100000) :
    Cert.ReferenceIdeal.Read.val_main_v19 (F := Ideal) x1 (ix1 i) ≠ 0 := by
  rw [deg_eq]
  exact max_one_ne_zero _

/-- The quotient of the all-ones array by an array Y, at entry i, is 1 / Y(i). -/
theorem one_div_at (i : Fin 100000) (Y : FVec Ideal S100000 .f32) :
    Host.divf (broadcastInDim S100000 ![] bcast_S_S100000 (constant (F := Ideal) S_ .f32 0x3F800000#32)) Y (ix1 i) = Ideal.div 1 (Y (ix1 i)) := by
  simp only [Host.divf, broadcastInDim, constant, Ideal.hostDivf_def, Ideal.ofBits_def, one_val]

/-- Entry i of the reciprocal column is 1 over the clipped degree of node i. -/
theorem inv_at (c : Dev nD) (i : Fin 100000) :
    V1 m ρ c main_v12 (ix2 i 0)
      = Ideal.div 1 (Cert.ReferenceIdeal.Read.val_main_v19 (F := Ideal) (m ((c : Thread nD τ).loc main_arg1)) (ix1 i)) :=
  (congrFun (V1_v12 m ρ c) (ix2 i 0)).trans
    ((shapeCast_a_a1_apply _ shapeCasts_S100000_S100000x1 i 0).trans (one_div_at i _))

/-- Entry j of the first bias row is entry j of the bias. -/
theorem b1_at (c : Dev nD) (j : Fin 128) :
    V1 m ρ c main_v23 (ix2 0 j) = m ((c : Thread nD τ).loc main_arg3) (ix1 j) := by
  rw [V1_v23]
  exact shapeCast_a_1a_apply _ shapeCasts_S128_S1x128 0 j

/-! ## Region 1's entry

Region 0 writes only its output array; the host operations between the regions write neither an argument nor an array
the first stretch made. So each array region 1 is entered with is read back through region 0's exit to the first
stretch, except the hidden layer (region 0's output) and what the second stretch computes from it. -/

/-- A buffer that is no array of region 0's windows, after region 0, holds what the first host stretch left there. -/
theorem W2_keep (c : Dev nD) (b : Ref sig .tc) (hb : ∀ w, Pipeline.arrRef spec0 w ≠ b) :
    W2 m ρ c (Proc.devRef .tc b) = StableHlo.after hostOps0 (W0 m ρ c) (Proc.devRef .tc b) :=
  W2_of_ne m ρ c b hb

/-- The source node of every edge, as the reference's stage. -/
theorem W2_v1 (c : Dev nD) :
    W2 m ρ c (Proc.devRef .tc main_v1) = Cert.ReferenceIdeal.Read.val_main_v1 (F := Ideal) (m ((c : Thread nD τ).loc main_arg1)) := by
  rw [W2_keep m ρ c main_v1 (by decide)]
  after_results_simp
  rfl

/-- The destination node of every edge, as the reference's stage. -/
theorem W2_v3 (c : Dev nD) :
    W2 m ρ c (Proc.devRef .tc main_v3) = Cert.ReferenceIdeal.Read.val_main_v3 (F := Ideal) (m ((c : Thread nD τ).loc main_arg1)) := by
  rw [W2_keep m ρ c main_v3 (by decide)]
  after_results_simp
  rfl

/-- The hidden layer region 1 reads is what region 0 left in its output. -/
theorem V3_v24 (c : Dev nD) : V3 m ρ c main_v24 = (dat0 (V1 m ρ) c).arrAt 6 cfg0.N := by
  show StableHlo.after hostOps1 (W2 m ρ c) (Proc.devRef .tc main_v24) = _
  after_results_simp
  exact W2_arr m ρ c 6

/-- The reciprocal column is the one region 0 read. -/
theorem V3_v12 (c : Dev nD) : V3 m ρ c main_v12 = V1 m ρ c main_v12 := by
  show StableHlo.after hostOps1 (W2 m ρ c) (Proc.devRef .tc main_v12) = _
  after_results_simp
  exact (W2_arr m ρ c 1).trans (((dat0 (V1 m ρ) c).arrAt_in 1 rfl _).trans (A_eq0 (V1 m ρ) c 1))

/-- The neighbour sums of the hidden layer: the reference's scatter-add of the gathered rows of ITS hidden layer, once
    the two hidden layers are known to agree. -/
theorem V3_v34 (c : Dev nD)
    (hH : W2 m ρ c (Proc.devRef .tc main_v24)
      = Cert.ReferenceIdeal.Read.val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4))) :
    V3 m ρ c main_v34
      = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps1 (W2 m ρ c) (Proc.devRef .tc main_v34) = _
  after_results_simp
  rw [hH, W2_v1 m ρ c, W2_v3 m ρ c]
  rfl

/-! The weights, and the biases as rows. -/

theorem V3_arg5 (c : Dev nD) : V3 m ρ c main_arg5 = m ((c : Thread nD τ).loc main_arg5) := by
  show StableHlo.after hostOps1 (W2 m ρ c) (Proc.devRef .tc main_arg5) = _
  after_results_simp
  rw [W2_keep m ρ c main_arg5 (by decide)]
  after_results_simp
theorem V3_arg7 (c : Dev nD) : V3 m ρ c main_arg7 = m ((c : Thread nD τ).loc main_arg7) := by
  show StableHlo.after hostOps1 (W2 m ρ c) (Proc.devRef .tc main_arg7) = _
  after_results_simp
  rw [W2_keep m ρ c main_arg7 (by decide)]
  after_results_simp
theorem V3_arg8 (c : Dev nD) : V3 m ρ c main_arg8 = m ((c : Thread nD τ).loc main_arg8) := by
  show StableHlo.after hostOps1 (W2 m ρ c) (Proc.devRef .tc main_arg8) = _
  after_results_simp
  rw [W2_keep m ρ c main_arg8 (by decide)]
  after_results_simp
theorem V3_arg10 (c : Dev nD) : V3 m ρ c main_arg10 = m ((c : Thread nD τ).loc main_arg10) := by
  show StableHlo.after hostOps1 (W2 m ρ c) (Proc.devRef .tc main_arg10) = _
  after_results_simp
  rw [W2_keep m ρ c main_arg10 (by decide)]
  after_results_simp
theorem V3_arg12 (c : Dev nD) : V3 m ρ c main_arg12 = m ((c : Thread nD τ).loc main_arg12) := by
  show StableHlo.after hostOps1 (W2 m ρ c) (Proc.devRef .tc main_arg12) = _
  after_results_simp
  rw [W2_keep m ρ c main_arg12 (by decide)]
  after_results_simp

/-- The second layer's bias as a 1 × 64 row. -/
theorem V3_v35 (c : Dev nD) :
    V3 m ρ c main_v35 = shapeCast S1x64 (m ((c : Thread nD τ).loc main_arg6)) shapeCasts_S64_S1x64 := by
  show StableHlo.after hostOps1 (W2 m ρ c) (Proc.devRef .tc main_v35) = _
  after_results_simp
  rw [W2_keep m ρ c main_arg6 (by decide)]
  after_results_simp
  rfl

/-- Its entry j is entry j of the bias. -/
theorem b_v35_at (c : Dev nD) (j : Fin 64) :
    V3 m ρ c main_v35 (ix2 0 j) = m ((c : Thread nD τ).loc main_arg6) (ix1 j) := by
  rw [V3_v35]
  exact shapeCast_a_1a_apply _ shapeCasts_S64_S1x64 0 j

/-- The perceptron's first bias as a 1 × 128 row. -/
theorem V3_v36 (c : Dev nD) :
    V3 m ρ c main_v36 = shapeCast S1x128 (m ((c : Thread nD τ).loc main_arg9)) shapeCasts_S128_S1x128 := by
  show StableHlo.after hostOps1 (W2 m ρ c) (Proc.devRef .tc main_v36) = _
  after_results_simp
  rw [W2_keep m ρ c main_arg9 (by decide)]
  after_results_simp
  rfl

/-- Its entry j is entry j of the bias. -/
theorem b_v36_at (c : Dev nD) (j : Fin 128) :
    V3 m ρ c main_v36 (ix2 0 j) = m ((c : Thread nD τ).loc main_arg9) (ix1 j) := by
  rw [V3_v36]
  exact shapeCast_a_1a_apply _ shapeCasts_S128_S1x128 0 j

/-- The perceptron's second bias as a 1 × 64 row. -/
theorem V3_v37 (c : Dev nD) :
    V3 m ρ c main_v37 = shapeCast S1x64 (m ((c : Thread nD τ).loc main_arg11)) shapeCasts_S64_S1x64 := by
  show StableHlo.after hostOps1 (W2 m ρ c) (Proc.devRef .tc main_v37) = _
  after_results_simp
  rw [W2_keep m ρ c main_arg11 (by decide)]
  after_results_simp
  rfl

/-- Its entry j is entry j of the bias. -/
theorem b_v37_at (c : Dev nD) (j : Fin 64) :
    V3 m ρ c main_v37 (ix2 0 j) = m ((c : Thread nD τ).loc main_arg11) (ix1 j) := by
  rw [V3_v37]
  exact shapeCast_a_1a_apply _ shapeCasts_S64_S1x64 0 j

/-- The perceptron's last bias as a 1 × 1 row. -/
theorem V3_v38 (c : Dev nD) :
    V3 m ρ c main_v38 = shapeCast S1x1 (m ((c : Thread nD τ).loc main_arg13)) shapeCasts_S1_S1x1 := by
  show StableHlo.after hostOps1 (W2 m ρ c) (Proc.devRef .tc main_v38) = _
  after_results_simp
  rw [W2_keep m ρ c main_arg13 (by decide)]
  after_results_simp
  rfl

/-- Its entry j is entry j of the bias. -/
theorem b_v38_at (c : Dev nD) (j : Fin 1) :
    V3 m ρ c main_v38 (ix2 0 j) = m ((c : Thread nD τ).loc main_arg13) (ix1 j) := by
  rw [V3_v38]
  exact shapeCast_a_1a_apply _ shapeCasts_S1_S1x1 0 j

end Cert.KernelIdeal.Host
-- ==== Proof.LibDotPlain.lean ====
/-
  The plain matrix product read at one entry.

  The dimension numbers `DotDims.plain M K N` describe an M × K array times a K × N array with no batch axis: the left
  factor's axis 1 is contracted with the right factor's axis 0, the left factor's axis 0 becomes the result's rows and
  the right factor's axis 1 its columns. At result entry (i, j) and contraction position k the left factor is therefore
  read at (i, c) and the right factor at (c, j), where c is the one coordinate of k (the contraction index set has a
  single axis, of extent K). Summing over k is the same as summing over c, so over the extended reals the entry is

      ∑ q : Fin K, A (i, q) · B (q, j),

  one sum of products in which no law of the extended reals is used: only the index set of the sum is renamed. This holds
  for the kernel's product accumulated into an all-zero array (`matmul_zero_plain`) and for the host's product, which
  has no accumulator (`dotGeneral_plain`), whatever precision or schedule they are annotated with.
-/
import Idealize.ShloMosaic.PureOps.Ideal.Laws
import Idealize.ShloMosaic.Lib.ValueIdx

noncomputable section

open scoped BigOperators

namespace Cert.LibDotPlain

open Idealize.ShloMosaic Idealize.ShloMosaic.ValueIdx

variable {M K N : Nat}

/-! ## The one coordinate of a contraction position -/

/-- The contraction index set of the plain product is a single axis of extent `K`; `col k` is the coordinate of the
    position `k` along it, as a number below `K`. -/
def col (k : (DotDims.plain M K N).contr.Idx) : Fin K := contrEquiv1 (DotDims.plain M K N) K rfl rfl k

/-- Positions and coordinates correspond one to one, so a sum over the coordinates, read at `col k`, is a sum over
    the positions. -/
theorem sum_col {β : Type*} [AddCommMonoid β] (f : Fin K → β) :
    ∑ k : (DotDims.plain M K N).contr.Idx, f (col k) = ∑ q : Fin K, f q :=
  Equiv.sum_comp (contrEquiv1 (DotDims.plain M K N) K rfl rfl) f

/-- `col k` as a number: the position's entry on the contraction set's axis 0. -/
theorem col_val (k : (DotDims.plain M K N).contr.Idx) : (col k).val = (k ⟨0, Nat.one_pos⟩).val := rfl

/-! ## The four coordinates the two factors are read at

Each is stated at the literal axis, for any result index `e` and any contraction position `k`. -/

/-- The left factor's row is the result's row: axis 0 of the left factor is its one free axis, the first of the
    result's axes. -/
theorem left_row (e : (⟨2, ![M, N]⟩ : Shape).Idx) (k : (DotDims.plain M K N).contr.Idx) :
    ((DotDims.plain M K N).lhsIdx e k 0).val = (e 0).val := rfl

/-- The left factor's column is the contraction coordinate: axis 1 of the left factor is its one contracted axis. -/
theorem left_col (e : (⟨2, ![M, N]⟩ : Shape).Idx) (k : (DotDims.plain M K N).contr.Idx) :
    ((DotDims.plain M K N).lhsIdx e k 1).val = (col k).val :=
  (DotDims.plain M K N).lhsIdx_val_of_single (cl := 1) rfl e k

/-- The right factor's row is the contraction coordinate: axis 0 of the right factor is its one contracted axis. -/
theorem right_row (e : (⟨2, ![M, N]⟩ : Shape).Idx) (k : (DotDims.plain M K N).contr.Idx) :
    ((DotDims.plain M K N).rhsIdx e k 0).val = (col k).val :=
  (DotDims.plain M K N).rhsIdx_val_of_single (cr := 0) rfl e k

/-- The right factor's column is the result's column: axis 1 of the right factor is its one free axis, which comes
    second among the result's axes, after the left factor's free axis. -/
theorem right_col (e : (⟨2, ![M, N]⟩ : Shape).Idx) (k : (DotDims.plain M K N).contr.Idx) :
    ((DotDims.plain M K N).rhsIdx e k 1).val = (e 1).val := rfl

/-! ## The two operand indices at entry (i, j) -/

/-- At result entry (i, j) and contraction position `k` the left factor is read at (i, `col k`). -/
theorem left_at (i : Fin M) (j : Fin N) (k : (DotDims.plain M K N).contr.Idx) :
    (DotDims.plain M K N).lhsIdx (ix2 i j) k = ix2 i (col k) := by
  funext a
  apply Fin.ext
  match a with
  | ⟨0, _⟩ => exact left_row (ix2 i j) k
  | ⟨1, _⟩ => exact left_col (ix2 i j) k

/-- At result entry (i, j) and contraction position `k` the right factor is read at (`col k`, j). -/
theorem right_at (i : Fin M) (j : Fin N) (k : (DotDims.plain M K N).contr.Idx) :
    (DotDims.plain M K N).rhsIdx (ix2 i j) k = ix2 (col k) j := by
  funext a
  apply Fin.ext
  match a with
  | ⟨0, _⟩ => exact right_row (ix2 i j) k
  | ⟨1, _⟩ => exact right_col (ix2 i j) k

/-- The sum over contraction positions of the factors' products at entry (i, j) is the sum over q of
    A (i, q) · B (q, j): each term is read at (i, `col k`) and (`col k`, j), and the positions are renamed by their
    coordinates. -/
theorem sum_products {φ₁ φ₂ : FTy} (A : FVec Ideal ⟨2, ![M, K]⟩ φ₁) (B : FVec Ideal ⟨2, ![K, N]⟩ φ₂)
    (i : Fin M) (j : Fin N) :
    ∑ k : (DotDims.plain M K N).contr.Idx,
        A ((DotDims.plain M K N).lhsIdx (ix2 i j) k) * B ((DotDims.plain M K N).rhsIdx (ix2 i j) k)
      = ∑ q : Fin K, A (ix2 i q) * B (ix2 q j) := by
  rw [← sum_col (M := M) (N := N) fun q => A (ix2 i q) * B (ix2 q j)]
  exact Finset.sum_congr rfl fun k _ => by rw [left_at, right_at]

/-! ## The two products at an entry -/

/-- The kernel's M × K by K × N product accumulated into the all-zero M × N array, at the ideal values and at entry
    (i, j): the sum over q of A (i, q) · B (q, j). The zero accumulator adds nothing and the precision annotation
    plays no part. -/
theorem matmul_zero_plain (M K N : Nat) {φ₁ φ₂ : FTy} (prec : Option ContractPrecision)
    (A : FVec Ideal ⟨2, ![M, K]⟩ φ₁) (B : FVec Ideal ⟨2, ![K, N]⟩ φ₂) (i : Fin M) (j : Fin N) :
    FloatOps.matmul (DotDims.plain M K N) prec A B (constant ⟨2, ![M, N]⟩ .f32 0x00000000#32) (ix2 i j)
      = ∑ q : Fin K, A (ix2 i q) * B (ix2 q j) :=
  (Ideal.matmul_constant_zero_apply (DotDims.plain M K N) prec A B (ix2 i j)).trans (sum_products A B i j)

/-- The host's M × K by K × N product, at the ideal values and at entry (i, j): the sum over q of
    A (i, q) · B (q, j), whatever the precision annotation and the schedule. -/
theorem dotGeneral_plain (M K N : Nat) {φ₁ φ₂ : FTy} (prec : Option ContractPrecision) (sched : HostSchedule)
    (A : FVec Ideal ⟨2, ![M, K]⟩ φ₁) (B : FVec Ideal ⟨2, ![K, N]⟩ φ₂) (i : Fin M) (j : Fin N) :
    FloatOps.dotGeneral (DotDims.plain M K N) prec sched A B (ix2 i j)
      = ∑ q : Fin K, A (ix2 i q) * B (ix2 q j) :=
  (Ideal.dotGeneral_apply (DotDims.plain M K N) prec sched A B (ix2 i j)).trans (sum_products A B i j)

end Cert.LibDotPlain
-- ==== Proof.KRegion0.lean ====
/-
  Region 0: the first graph-convolution layer, one block of 2000 nodes per grid point.

  At grid point t the kernel reads rows 2000·t … 2000·t + 1999 of the neighbour sums, of the reciprocal clipped degree and
  of the node features, the two 64 × 128 weight arrays and the 1 × 128 bias whole, and stores

      max( (a ⊙ d) · Wl + x · Wr + b , 0 )

  into rows 2000·t … of the 100000 × 128 output. Entry (p, j) of the stored block depends on row p of the three row
  blocks only, so it is entry (2000·t + p, j) of ONE function of the whole arrays; the 50 blocks are disjoint and fill
  the output, which therefore ends holding that function.
-/
import proofs.«135351_j11381663334735_1_alg».proof.Proof.Gen.KernelIdeal.Frame
import proofs.«135351_j11381663334735_1_alg».proof.Proof.Spec
import proofs.«135351_j11381663334735_1_alg».proof.Proof.LibDotPlain
import Idealize.ShloMosaic.Lib.ValueIdx
import Idealize.ShloMosaic.Lib.ValueLayout
import Idealize.ShloMosaic.Lib.Pipeline.Value

noncomputable section

open scoped BigOperators

namespace Cert.KernelIdeal.Region0

open Idealize.ShloMosaic Idealize.ShloMosaic.TcCoe Idealize.ShloMosaic.ValueIdx Idealize.SL.Sem
open Cert.KernelIdeal Cert.KernelIdeal.Gen Cert.Sage

/-! ## The stored block at an entry -/

/-- The 2000 × 64 by 64 × 128 product's dimension numbers are the plain ones. -/
theorem dot0 : dot_S2000x64_S64x128_S2000x128_1_0_0_1_n_n = DotDims.plain 2000 64 128 := rfl

/-- A 2000 × 1 column spread over 64 columns: entry (p, q) is the column's entry p. -/
theorem bcol {α : Type} (v : S2000x1.Idx → α) (p : Fin 2000) (q : Fin 64) :
    broadcastTo S2000x64 v broadcasts_S2000x1_S2000x64 (ix2 p q) = v (ix2 p 0) :=
  broadcastTo_apply v broadcasts_S2000x1_S2000x64 (ix2 p q) (ix2 p 0) (fun a => match a with | ⟨0, _⟩ => rfl | ⟨1, _⟩ => rfl)

/-- A 1 × 128 row spread over 2000 rows: entry (p, j) is the row's entry j. -/
theorem brow {α : Type} (v : S1x128.Idx → α) (p : Fin 2000) (j : Fin 128) :
    broadcastTo S2000x128 v broadcasts_S1x128_S2000x128 (ix2 p j) = v (ix2 0 j) :=
  broadcastTo_apply v broadcasts_S1x128_S2000x128 (ix2 p j) (ix2 0 j) (fun a => match a with | ⟨0, _⟩ => rfl | ⟨1, _⟩ => rfl)

/-- Entry (p, j) of the block the body stores: the rectified layer of the loaded blocks. The changes of float format
    are the identity, the two products into zero are plain sums over the 64 inner positions. -/
theorem pay0_at (x0 : Vec Ideal S2000x64 .f32) (x1 : Vec Ideal S2000x1 .f32) (x2 : Vec Ideal S2000x64 .f32)
    (x3 x4 : Vec Ideal S64x128 .f32) (x5 : Vec Ideal S1x128 .f32) (p : Fin 2000) (j : Fin 128) :
    k0_pay1 (F := Ideal) x0 x1 x2 x3 x4 x5 (ix2 p j) = max (convK x0 x1 x2 x3 x4 x5 p j) 0 := by
  unfold k0_pay1
  simp only [shapeCast_self]
  rw [maximumf_apply, addf_apply, addf_apply, broadcast_apply, brow, dot0]
  simp only [matmul]
  rw [Cert.LibDotPlain.matmul_zero_plain 2000 64 128, Cert.LibDotPlain.matmul_zero_plain 2000 64 128]
  simp only [truncf_apply, mulf_apply, bcol]
  unfold convK
  show max _ (Ideal.ofBits .f32 0x00000000#32) = _
  rw [zero_val]

/-! ## What a grid point writes back -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-blocked inputs move with the output's row block, every block's column
    index is 0, and the weights and the bias are fetched at block (0, 0). -/
theorem idx_facts : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (1 : Fin 2) = 0 :=
  (by decide +kernel : ∀ t : Fin grid0.N, _)

/-- The whole-array function the output ends at. -/
abbrev G0 (c : Dev nD) : Mat 100000 128 :=
  mat (fun i j => max (convK (V c main_v22) (V c main_v12) (V c main_arg0) (V c main_arg2) (V c main_arg4) (V c main_v23) i j) 0)

/-! Each input block's entry is the array's entry at the output block's row (resp. at the same place, for the arrays
    fetched whole). -/

theorem rd0 (c : Dev nD) (t : Fin cfg0.N) (p : Fin 2000) (q : Fin 64) (r : Fin 100000)
    (hr : r.val = win0_6.index t (0 : Fin 2) * 2000 + 1 * p.val) :
    iblk0 V c 0 t (ix2 p q) = V c main_v22 (ix2 r q) := by
  show V c main_v22 (((cfg0.win 0).blk t).view.emb (ix2 p q)) = V c main_v22 (ix2 r q)
  refine congrArg (V c main_v22) ?_
  obtain ⟨e00, e01, -⟩ := idx_facts t
  funext a; apply Fin.ext
  match a with
  | ⟨0, _⟩ => show win0_0.index t (0 : Fin 2) * 2000 + 1 * p.val = r.val; omega
  | ⟨1, _⟩ => show win0_0.index t (1 : Fin 2) * 64 + 1 * q.val = q.val; omega

theorem rd1 (c : Dev nD) (t : Fin cfg0.N) (p : Fin 2000) (r : Fin 100000)
    (hr : r.val = win0_6.index t (0 : Fin 2) * 2000 + 1 * p.val) :
    iblk0 V c 1 t (ix2 p 0) = V c main_v12 (ix2 r 0) := by
  show V c main_v12 (((cfg0.win 1).blk t).view.emb (ix2 p 0)) = V c main_v12 (ix2 r 0)
  refine congrArg (V c main_v12) ?_
  obtain ⟨-, -, e10, e11, -⟩ := idx_facts t
  funext a; apply Fin.ext
  match a with
  | ⟨0, _⟩ => show win0_1.index t (0 : Fin 2) * 2000 + 1 * p.val = r.val; omega
  | ⟨1, _⟩ => show win0_1.index t (1 : Fin 2) * 1 + 1 * 0 = 0; omega

theorem rd2 (c : Dev nD) (t : Fin cfg0.N) (p : Fin 2000) (q : Fin 64) (r : Fin 100000)
    (hr : r.val = win0_6.index t (0 : Fin 2) * 2000 + 1 * p.val) :
    iblk0 V c 2 t (ix2 p q) = V c main_arg0 (ix2 r q) := by
  show V c main_arg0 (((cfg0.win 2).blk t).view.emb (ix2 p q)) = V c main_arg0 (ix2 r q)
  refine congrArg (V c main_arg0) ?_
  obtain ⟨-, -, -, -, e20, e21, -⟩ := idx_facts t
  funext a; apply Fin.ext
  match a with
  | ⟨0, _⟩ => show win0_2.index t (0 : Fin 2) * 2000 + 1 * p.val = r.val; omega
  | ⟨1, _⟩ => show win0_2.index t (1 : Fin 2) * 64 + 1 * q.val = q.val; omega

theorem rd3 (c : Dev nD) (t : Fin cfg0.N) (q : Fin 64) (j jj : Fin 128) (hj : jj.val = j.val) :
    iblk0 V c 3 t (ix2 q j) = V c main_arg2 (ix2 q jj) := by
  show V c main_arg2 (((cfg0.win 3).blk t).view.emb (ix2 q j)) = V c main_arg2 (ix2 q jj)
  refine congrArg (V c main_arg2) ?_
  obtain ⟨-, -, -, -, -, -, e30, e31, -⟩ := idx_facts t
  funext a; apply Fin.ext
  match a with
  | ⟨0, _⟩ => show win0_3.index t (0 : Fin 2) * 64 + 1 * q.val = q.val; omega
  | ⟨1, _⟩ => show win0_3.index t (1 : Fin 2) * 128 + 1 * j.val = jj.val; omega

theorem rd4 (c : Dev nD) (t : Fin cfg0.N) (q : Fin 64) (j jj : Fin 128) (hj : jj.val = j.val) :
    iblk0 V c 4 t (ix2 q j) = V c main_arg4 (ix2 q jj) := by
  show V c main_arg4 (((cfg0.win 4).blk t).view.emb (ix2 q j)) = V c main_arg4 (ix2 q jj)
  refine congrArg (V c main_arg4) ?_
  obtain ⟨-, -, -, -, -, -, -, -, e40, e41, -⟩ := idx_facts t
  funext a; apply Fin.ext
  match a with
  | ⟨0, _⟩ => show win0_4.index t (0 : Fin 2) * 64 + 1 * q.val = q.val; omega
  | ⟨1, _⟩ => show win0_4.index t (1 : Fin 2) * 128 + 1 * j.val = jj.val; omega

theorem rd5 (c : Dev nD) (t : Fin cfg0.N) (j jj : Fin 128) (hj : jj.val = j.val) :
    iblk0 V c 5 t (ix2 0 j) = V c main_v23 (ix2 0 jj) := by
  show V c main_v23 (((cfg0.win 5).blk t).view.emb (ix2 0 j)) = V c main_v23 (ix2 0 jj)
  refine congrArg (V c main_v23) ?_
  obtain ⟨-, -, -, -, -, -, -, -, -, -, e50, e51, -⟩ := idx_facts t
  funext a; apply Fin.ext
  match a with
  | ⟨0, _⟩ => show win0_5.index t (0 : Fin 2) * 1 + 1 * 0 = 0; omega
  | ⟨1, _⟩ => show win0_5.index t (1 : Fin 2) * 128 + 1 * j.val = jj.val; omega

/-- What point t writes back is block t of the whole-array function. -/
theorem flushed0 (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S2000x64) hz, View.ld_unit_zero (S := S2000x1) hz, View.ld_unit_zero (S := S64x128) hz,
    View.ld_unit_zero (S := S1x128) hz]
  funext y
  obtain ⟨p, j, rfl⟩ : ∃ (p : Fin 2000) (j : Fin 128), y = ix2 p j := ⟨y 0, y 1, eq_ix2 y⟩
  refine (pay0_at _ _ _ _ _ _ p j).trans ?_
  rw [View.read_apply]
  have hr : ((((cfg0.win 6).blk t).view.emb (ix2 p j)) 0).val = win0_6.index t (0 : Fin 2) * 2000 + 1 * p.val := rfl
  have hj : ((((cfg0.win 6).blk t).view.emb (ix2 p j)) 1).val = j.val := by
    obtain ⟨-, -, -, -, -, -, -, -, -, -, -, -, e61⟩ := idx_facts t
    show win0_6.index t (1 : Fin 2) * 128 + 1 * j.val = j.val
    omega
  show _ = max (convK (V c main_v22) (V c main_v12) (V c main_arg0) (V c main_arg2) (V c main_arg4) (V c main_v23)
    ((((cfg0.win 6).blk t).view.emb (ix2 p j)) 0) ((((cfg0.win 6).blk t).view.emb (ix2 p j)) 1)) 0
  unfold convK
  simp only [rd0 V c t p _ _ hr, rd1 V c t p _ hr, rd2 V c t p _ _ hr, rd3 V c t _ j _ hj, rd4 V c t _ j _ hj, rd5 V c t j _ hj]

/-! ## The blocks fill the output -/

/-- An index of the output lies in point t's block iff each coordinate lies in the block's range on its axis. -/
theorem mem_blk (t : Fin cfg0.N) (i : S100000x128.Idx) :
    i ∈ ((cfg0.win 6).blk t).view.set ↔ ∀ a : Fin 2, win0_6.index t a * S2000x128.size a ≤ (i a).val
      ∧ (i a).val < win0_6.index t a * S2000x128.size a + S2000x128.size a := by
  show i ∈ ((View.whole main_v24).slice (win0_6.rect t)).set ↔ _
  rw [View.set_slice_whole, Rect.mem_set_unit]
  exact Iff.rfl

/-- Every row block 0 … 49 is some grid point's. -/
theorem idx_onto : ∀ q0 : Fin 50, ∃ t : Fin cfg0.N, win0_6.index t = ![q0.val, 0] :=
  (by decide +kernel : ∀ q0 : Fin 50, ∃ t : Fin grid0.N, win0_6.index t = ![q0.val, 0])

/-- Row r of the output is written by the point whose row block is r / 2000. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 128 ≤ (i 1).val ∧ (i 1).val < win0_6.index t (1 : Fin 2) * 128 + 128; omega

/-- The output array after the region: the rectified layer of the arrays the region was entered with. -/
theorem final0 (c : Dev nD) :
    (dat0 (F := Ideal) V c).arrAt 6 cfg0.N
      = mat (fun i j => max (convK (V c main_v22) (V c main_v12) (V c main_arg0) (V c main_arg2) (V c main_arg4) (V c main_v23) i j) 0) :=
  (dat0 (F := Ideal) V c).arrAt_eq_of_cover 6 (G0 V c) (fun t _ => flushed0 V c t) cover0

end Cert.KernelIdeal.Region0
-- ==== Proof.KRegion1.lean ====
/-
  Region 1: the second graph-convolution layer and the three-layer perceptron, one block of 2000 nodes per grid point.

  At grid point t the kernel reads rows 2000·t … 2000·t + 1999 of the neighbour sums of the hidden features, of the
  reciprocal clipped degree and of the hidden features, and the five weight arrays and four biases whole. It stores

      e = (a ⊙ d) · Wl + h · Wr + b                                     (2000 × 64)

  into rows 2000·t … of the 100000 × 64 embeddings output, and

      logistic( max( max(e · W1 + b1, 0) · W2 + b2, 0) · W3 + b3 )      (2000 × 1)

  into rows 2000·t … of the 100000 × 1 probabilities output. Every product contracts over columns only, so entry (p, j)
  of either stored block depends on row p of the three row blocks alone: it is entry (2000·t + p, j) of ONE function of
  the whole arrays. The 50 row blocks are disjoint and fill each output, which therefore ends holding that function.
  Over the extended reals the changes of float format are the identity and a product into a zero accumulator is the
  plain sum over the contracted index, so the two functions are the layer and the perceptron of the shared vocabulary.
-/
import proofs.«135351_j11381663334735_1_alg».proof.Proof.Gen.KernelIdeal.Frame
import proofs.«135351_j11381663334735_1_alg».proof.Proof.Spec
import proofs.«135351_j11381663334735_1_alg».proof.Proof.LibDotPlain
import Idealize.ShloMosaic.Lib.ValueIdx
import Idealize.ShloMosaic.Lib.ValueLayout
import Idealize.ShloMosaic.Lib.Pipeline.Value

noncomputable section

open scoped BigOperators

namespace Cert.KernelIdeal.Region1

open Idealize.ShloMosaic Idealize.ShloMosaic.TcCoe Idealize.ShloMosaic.ValueIdx Idealize.SL.Sem
open Cert.KernelIdeal Cert.KernelIdeal.Gen Cert.Sage

/-! ## The three matrix products of the body are plain sums over the contracted index -/

theorem dotA : dot_S2000x128_S128x64_S2000x64_1_0_0_1_n_n = DotDims.plain 2000 128 64 := rfl
theorem dotB : dot_S2000x64_S64x128_S2000x128_1_0_0_1_n_n = DotDims.plain 2000 64 128 := rfl
theorem dotC : dot_S2000x64_S64x1_S2000x1_1_0_0_1_n_n = DotDims.plain 2000 64 1 := rfl

/-! ## Spreading a column along a row, a row down the rows -/

theorem bcol128 {α : Type} (v : S2000x1.Idx → α) (p : Fin 2000) (q : Fin 128) :
    broadcastTo S2000x128 v broadcasts_S2000x1_S2000x128 (ix2 p q) = v (ix2 p 0) :=
  broadcastTo_apply v broadcasts_S2000x1_S2000x128 (ix2 p q) (ix2 p 0) (fun a => match a with | ⟨0, _⟩ => rfl | ⟨1, _⟩ => rfl)

theorem brow64 {α : Type} (v : S1x64.Idx → α) (p : Fin 2000) (j : Fin 64) :
    broadcastTo S2000x64 v broadcasts_S1x64_S2000x64 (ix2 p j) = v (ix2 0 j) :=
  broadcastTo_apply v broadcasts_S1x64_S2000x64 (ix2 p j) (ix2 0 j) (fun a => match a with | ⟨0, _⟩ => rfl | ⟨1, _⟩ => rfl)

theorem brow128 {α : Type} (v : S1x128.Idx → α) (p : Fin 2000) (j : Fin 128) :
    broadcastTo S2000x128 v broadcasts_S1x128_S2000x128 (ix2 p j) = v (ix2 0 j) :=
  broadcastTo_apply v broadcasts_S1x128_S2000x128 (ix2 p j) (ix2 0 j) (fun a => match a with | ⟨0, _⟩ => rfl | ⟨1, _⟩ => rfl)

theorem brow1 {α : Type} (v : S1x1.Idx → α) (p : Fin 2000) (j : Fin 1) :
    broadcastTo S2000x1 v broadcasts_S1x1_S2000x1 (ix2 p j) = v (ix2 0 j) := by
  have hj : j = 0 := Subsingleton.elim _ _
  subst hj
  exact broadcastTo_apply v broadcasts_S1x1_S2000x1 (ix2 p 0) (ix2 0 0) (fun a => match a with | ⟨0, _⟩ => rfl | ⟨1, _⟩ => rfl)

/-! ## The body's values at an entry -/

/-- The embeddings block: entry (p, j) is the second convolution layer at row p, column j of the loaded blocks. -/
theorem pay2_at (x0 : Vec Ideal S2000x128 .f32) (x1 : Vec Ideal S2000x1 .f32) (x2 : Vec Ideal S2000x128 .f32)
    (x3 x4 : Vec Ideal S128x64 .f32) (x5 : Vec Ideal S1x64 .f32) (p : Fin 2000) (j : Fin 64) :
    k1_pay2 (F := Ideal) x0 x1 x2 x3 x4 x5 (ix2 p j) = convK x0 x1 x2 x3 x4 x5 p j := by
  unfold k1_pay2
  simp only [shapeCast_self]
  rw [addf_apply, addf_apply, brow64, dotA]
  simp only [matmul]
  rw [Cert.LibDotPlain.matmul_zero_plain 2000 128 64, Cert.LibDotPlain.matmul_zero_plain 2000 128 64]
  simp only [truncf_apply, mulf_apply, bcol128]
  unfold convK
  rfl

/-- The first hidden layer of the perceptron, rectified, on the embeddings block. -/
theorem pay3_at (x0 : Vec Ideal S2000x128 .f32) (x1 : Vec Ideal S2000x1 .f32) (x2 : Vec Ideal S2000x128 .f32)
    (x3 x4 : Vec Ideal S128x64 .f32) (x5 : Vec Ideal S1x64 .f32) (x6 : Vec Ideal S64x128 .f32) (x7 : Vec Ideal S1x128 .f32)
    (p : Fin 2000) (q : Fin 128) :
    k1_pay3 (F := Ideal) x0 x1 x2 x3 x4 x5 x6 x7 (ix2 p q)
      = max (denseK (convK x0 x1 x2 x3 x4 x5) x6 x7 p q) 0 := by
  unfold k1_pay3
  simp only [shapeCast_self]
  rw [truncf_apply, maximumf_apply, addf_apply, broadcast_apply, brow128, dotB]
  simp only [matmul]
  rw [Cert.LibDotPlain.matmul_zero_plain 2000 64 128]
  simp only [truncf_apply, pay2_at]
  unfold denseK
  show max _ (Ideal.ofBits .f32 0x00000000#32) = _
  rw [zero_val]

/-- The logistic function of an array, read at an index, is the logistic function of the entry. -/
theorem logistic_at {s : Shape} (x : FVec Ideal s .f32) (i : s.Idx) : logistic x i = Ideal.logistic (x i) := rfl

/-- The second hidden layer, the output layer and the logistic function, on any first hidden layer h. -/
theorem pay1_at (h : FVec Ideal S2000x128 .bf16) (x8 : Vec Ideal S128x64 .f32) (x9 : Vec Ideal S1x64 .f32)
    (x10 : Vec Ideal S64x1 .f32) (x11 : Vec Ideal S1x1 .f32) (p : Fin 2000) (j : Fin 1) :
    k1_pay1 (F := Ideal) h x8 x9 x10 x11 (ix2 p j)
      = Ideal.logistic (denseK (fun i q => max (denseK (fun i r => h (ix2 i r)) x8 x9 i q) 0) x10 x11 p j) := by
  unfold k1_pay1
  simp only [shapeCast_self]
  rw [logistic_at, addf_apply, brow1, dotC]
  simp only [matmul]
  rw [Cert.LibDotPlain.matmul_zero_plain 2000 64 1]
  simp only [truncf_apply, maximumf_apply, addf_apply, broadcast_apply, brow64, dotA]
  simp only [Cert.LibDotPlain.matmul_zero_plain 2000 128 64, truncf_apply]
  unfold denseK
  show Ideal.logistic ((∑ q : Fin 64, max (_ + _) (Ideal.ofBits .f32 0x00000000#32) * _) + _) = _
  rw [zero_val]

/-- The probabilities block: entry (p, j) is the perceptron on the second convolution layer of the loaded blocks. -/
theorem pay13_at (x0 : Vec Ideal S2000x128 .f32) (x1 : Vec Ideal S2000x1 .f32) (x2 : Vec Ideal S2000x128 .f32)
    (x3 x4 : Vec Ideal S128x64 .f32) (x5 : Vec Ideal S1x64 .f32) (x6 : Vec Ideal S64x128 .f32) (x7 : Vec Ideal S1x128 .f32)
    (x8 : Vec Ideal S128x64 .f32) (x9 : Vec Ideal S1x64 .f32) (x10 : Vec Ideal S64x1 .f32) (x11 : Vec Ideal S1x1 .f32)
    (p : Fin 2000) (j : Fin 1) :
    k1_pay1 (F := Ideal) (k1_pay3 (F := Ideal) x0 x1 x2 x3 x4 x5 x6 x7) x8 x9 x10 x11 (ix2 p j)
      = mlpK (convK x0 x1 x2 x3 x4 x5) x6 x7 x8 x9 x10 x11 p j := by
  rw [pay1_at]
  simp only [pay3_at]
  rfl

/-! ## What a grid point writes back -/

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the three row-blocked inputs and the probabilities block move with the embeddings
    block's row block, and every one of these blocks has column index 0. -/
theorem idx_rows : ∀ t : Fin cfg1.N,
    win1_0.index t (0 : Fin 2) = win1_12.index t (0 : Fin 2) ∧ win1_0.index t (1 : Fin 2) = 0
    ∧ win1_1.index t (0 : Fin 2) = win1_12.index t (0 : Fin 2) ∧ win1_1.index t (1 : Fin 2) = 0
    ∧ win1_2.index t (0 : Fin 2) = win1_12.index t (0 : Fin 2) ∧ win1_2.index t (1 : Fin 2) = 0
    ∧ win1_12.index t (1 : Fin 2) = 0
    ∧ win1_13.index t (0 : Fin 2) = win1_12.index t (0 : Fin 2) ∧ win1_13.index t (1 : Fin 2) = 0 :=
  (by decide +kernel : ∀ t : Fin grid1.N, _)

/-- The index maps over the grid: the five weight arrays and the four biases are fetched at block (0, 0), whole. -/
theorem idx_whole : ∀ t : Fin cfg1.N,
    (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = 0 ∧ win1_11.index t (1 : Fin 2) = 0) :=
  (by decide +kernel : ∀ t : Fin grid1.N, _)

/-- The whole-array function the embeddings output ends at. -/
abbrev G12 (c : Dev nD) : Mat 100000 64 :=
  mat (convK (V c main_v34) (V c main_v12) (V c main_v24) (V c main_arg5) (V c main_arg7) (V c main_v35))

/-- The whole-array function the probabilities output ends at. -/
abbrev G13 (c : Dev nD) : Mat 100000 1 :=
  mat (mlpK (convK (V c main_v34) (V c main_v12) (V c main_v24) (V c main_arg5) (V c main_arg7) (V c main_v35))
    (V c main_arg8) (V c main_v36) (V c main_arg10) (V c main_v37) (V c main_arg12) (V c main_v38))

/-! A row-blocked input's entry (p, q) is the array's entry at the output block's row 2000·(row block) + p; an array
    fetched whole is read at the same place. -/

theorem rd0 (c : Dev nD) (t : Fin cfg1.N) (p : Fin 2000) (q : Fin 128) (r : Fin 100000)
    (hr : r.val = win1_12.index t (0 : Fin 2) * 2000 + 1 * p.val) :
    iblk1 V c 0 t (ix2 p q) = V c main_v34 (ix2 r q) := by
  show V c main_v34 (((cfg1.win 0).blk t).view.emb (ix2 p q)) = V c main_v34 (ix2 r q)
  refine congrArg (V c main_v34) ?_
  obtain ⟨e0, e1, -⟩ := idx_rows t
  funext a; apply Fin.ext
  match a with
  | ⟨0, _⟩ => show win1_0.index t (0 : Fin 2) * 2000 + 1 * p.val = r.val; omega
  | ⟨1, _⟩ => show win1_0.index t (1 : Fin 2) * 128 + 1 * q.val = q.val; omega

theorem rd1 (c : Dev nD) (t : Fin cfg1.N) (p : Fin 2000) (r : Fin 100000)
    (hr : r.val = win1_12.index t (0 : Fin 2) * 2000 + 1 * p.val) :
    iblk1 V c 1 t (ix2 p 0) = V c main_v12 (ix2 r 0) := by
  show V c main_v12 (((cfg1.win 1).blk t).view.emb (ix2 p 0)) = V c main_v12 (ix2 r 0)
  refine congrArg (V c main_v12) ?_
  obtain ⟨-, -, e0, e1, -⟩ := idx_rows t
  funext a; apply Fin.ext
  match a with
  | ⟨0, _⟩ => show win1_1.index t (0 : Fin 2) * 2000 + 1 * p.val = r.val; omega
  | ⟨1, _⟩ => show win1_1.index t (1 : Fin 2) * 1 + 1 * 0 = 0; omega

theorem rd2 (c : Dev nD) (t : Fin cfg1.N) (p : Fin 2000) (q : Fin 128) (r : Fin 100000)
    (hr : r.val = win1_12.index t (0 : Fin 2) * 2000 + 1 * p.val) :
    iblk1 V c 2 t (ix2 p q) = V c main_v24 (ix2 r q) := by
  show V c main_v24 (((cfg1.win 2).blk t).view.emb (ix2 p q)) = V c main_v24 (ix2 r q)
  refine congrArg (V c main_v24) ?_
  obtain ⟨-, -, -, -, e0, e1, -⟩ := idx_rows t
  funext a; apply Fin.ext
  match a with
  | ⟨0, _⟩ => show win1_2.index t (0 : Fin 2) * 2000 + 1 * p.val = r.val; omega
  | ⟨1, _⟩ => show win1_2.index t (1 : Fin 2) * 128 + 1 * q.val = q.val; omega

theorem rd3 (c : Dev nD) (t : Fin cfg1.N) (y : S128x64.Idx) : iblk1 V c 3 t y = V c main_arg5 y := by
  show V c main_arg5 (((cfg1.win 3).blk t).view.emb y) = V c main_arg5 y
  refine congrArg (V c main_arg5) ?_
  obtain ⟨⟨e0, e1⟩, -, -, -, -, -, -, -, -⟩ := idx_whole t
  funext a; apply Fin.ext
  match a with
  | ⟨0, _⟩ => show win1_3.index t (0 : Fin 2) * 128 + 1 * (y 0).val = (y 0).val; omega
  | ⟨1, _⟩ => show win1_3.index t (1 : Fin 2) * 64 + 1 * (y 1).val = (y 1).val; omega

theorem rd4 (c : Dev nD) (t : Fin cfg1.N) (y : S128x64.Idx) : iblk1 V c 4 t y = V c main_arg7 y := by
  show V c main_arg7 (((cfg1.win 4).blk t).view.emb y) = V c main_arg7 y
  refine congrArg (V c main_arg7) ?_
  obtain ⟨-, ⟨e0, e1⟩, -, -, -, -, -, -, -⟩ := idx_whole t
  funext a; apply Fin.ext
  match a with
  | ⟨0, _⟩ => show win1_4.index t (0 : Fin 2) * 128 + 1 * (y 0).val = (y 0).val; omega
  | ⟨1, _⟩ => show win1_4.index t (1 : Fin 2) * 64 + 1 * (y 1).val = (y 1).val; omega

theorem rd5 (c : Dev nD) (t : Fin cfg1.N) (y : S1x64.Idx) : iblk1 V c 5 t y = V c main_v35 y := by
  show V c main_v35 (((cfg1.win 5).blk t).view.emb y) = V c main_v35 y
  refine congrArg (V c main_v35) ?_
  obtain ⟨-, -, ⟨e0, e1⟩, -, -, -, -, -, -⟩ := idx_whole t
  funext a; apply Fin.ext
  match a with
  | ⟨0, _⟩ => show win1_5.index t (0 : Fin 2) * 1 + 1 * (y 0).val = (y 0).val; omega
  | ⟨1, _⟩ => show win1_5.index t (1 : Fin 2) * 64 + 1 * (y 1).val = (y 1).val; omega

theorem rd6 (c : Dev nD) (t : Fin cfg1.N) (y : S64x128.Idx) : iblk1 V c 6 t y = V c main_arg8 y := by
  show V c main_arg8 (((cfg1.win 6).blk t).view.emb y) = V c main_arg8 y
  refine congrArg (V c main_arg8) ?_
  obtain ⟨-, -, -, ⟨e0, e1⟩, -, -, -, -, -⟩ := idx_whole t
  funext a; apply Fin.ext
  match a with
  | ⟨0, _⟩ => show win1_6.index t (0 : Fin 2) * 64 + 1 * (y 0).val = (y 0).val; omega
  | ⟨1, _⟩ => show win1_6.index t (1 : Fin 2) * 128 + 1 * (y 1).val = (y 1).val; omega

theorem rd7 (c : Dev nD) (t : Fin cfg1.N) (y : S1x128.Idx) : iblk1 V c 7 t y = V c main_v36 y := by
  show V c main_v36 (((cfg1.win 7).blk t).view.emb y) = V c main_v36 y
  refine congrArg (V c main_v36) ?_
  obtain ⟨-, -, -, -, ⟨e0, e1⟩, -, -, -, -⟩ := idx_whole t
  funext a; apply Fin.ext
  match a with
  | ⟨0, _⟩ => show win1_7.index t (0 : Fin 2) * 1 + 1 * (y 0).val = (y 0).val; omega
  | ⟨1, _⟩ => show win1_7.index t (1 : Fin 2) * 128 + 1 * (y 1).val = (y 1).val; omega

theorem rd8 (c : Dev nD) (t : Fin cfg1.N) (y : S128x64.Idx) : iblk1 V c 8 t y = V c main_arg10 y := by
  show V c main_arg10 (((cfg1.win 8).blk t).view.emb y) = V c main_arg10 y
  refine congrArg (V c main_arg10) ?_
  obtain ⟨-, -, -, -, -, ⟨e0, e1⟩, -, -, -⟩ := idx_whole t
  funext a; apply Fin.ext
  match a with
  | ⟨0, _⟩ => show win1_8.index t (0 : Fin 2) * 128 + 1 * (y 0).val = (y 0).val; omega
  | ⟨1, _⟩ => show win1_8.index t (1 : Fin 2) * 64 + 1 * (y 1).val = (y 1).val; omega

theorem rd9 (c : Dev nD) (t : Fin cfg1.N) (y : S1x64.Idx) : iblk1 V c 9 t y = V c main_v37 y := by
  show V c main_v37 (((cfg1.win 9).blk t).view.emb y) = V c main_v37 y
  refine congrArg (V c main_v37) ?_
  obtain ⟨-, -, -, -, -, -, ⟨e0, e1⟩, -, -⟩ := idx_whole t
  funext a; apply Fin.ext
  match a with
  | ⟨0, _⟩ => show win1_9.index t (0 : Fin 2) * 1 + 1 * (y 0).val = (y 0).val; omega
  | ⟨1, _⟩ => show win1_9.index t (1 : Fin 2) * 64 + 1 * (y 1).val = (y 1).val; omega

theorem rd10 (c : Dev nD) (t : Fin cfg1.N) (y : S64x1.Idx) : iblk1 V c 10 t y = V c main_arg12 y := by
  show V c main_arg12 (((cfg1.win 10).blk t).view.emb y) = V c main_arg12 y
  refine congrArg (V c main_arg12) ?_
  obtain ⟨-, -, -, -, -, -, -, ⟨e0, e1⟩, -⟩ := idx_whole t
  funext a; apply Fin.ext
  match a with
  | ⟨0, _⟩ => show win1_10.index t (0 : Fin 2) * 64 + 1 * (y 0).val = (y 0).val; omega
  | ⟨1, _⟩ => show win1_10.index t (1 : Fin 2) * 1 + 1 * (y 1).val = (y 1).val; omega

theorem rd11 (c : Dev nD) (t : Fin cfg1.N) (y : S1x1.Idx) : iblk1 V c 11 t y = V c main_v38 y := by
  show V c main_v38 (((cfg1.win 11).blk t).view.emb y) = V c main_v38 y
  refine congrArg (V c main_v38) ?_
  obtain ⟨-, -, -, -, -, -, -, -, ⟨e0, e1⟩⟩ := idx_whole t
  funext a; apply Fin.ext
  match a with
  | ⟨0, _⟩ => show win1_11.index t (0 : Fin 2) * 1 + 1 * (y 0).val = (y 0).val; omega
  | ⟨1, _⟩ => show win1_11.index t (1 : Fin 2) * 1 + 1 * (y 1).val = (y 1).val; omega

/-- What point t writes back into the embeddings output is block t of the whole-array function. -/
theorem flushed12 (c : Dev nD) (t : Fin cfg1.N) :
    (dat1 (F := Ideal) V c).flushed 12 t = ((cfg1.win 12).blk t).view.read (Elt Ideal) (G12 V c) := by
  show (cfg1.win 12).cut (grid1.coords t) ((dat1 V c).after 12 t) = _
  rw [after1_12]
  unfold out1_12
  rw [View.canon_unit_zero hz]
  simp only [View.ld_unit_zero (S := S2000x128) hz, View.ld_unit_zero (S := S2000x1) hz, View.ld_unit_zero (S := S128x64) hz,
    View.ld_unit_zero (S := S1x64) hz]
  funext y
  obtain ⟨p, j, rfl⟩ : ∃ (p : Fin 2000) (j : Fin 64), y = ix2 p j := ⟨y 0, y 1, eq_ix2 y⟩
  refine (pay2_at _ _ _ _ _ _ p j).trans ?_
  rw [View.read_apply]
  have hr : ((((cfg1.win 12).blk t).view.emb (ix2 p j)) 0).val = win1_12.index t (0 : Fin 2) * 2000 + 1 * p.val := rfl
  have hc : (((cfg1.win 12).blk t).view.emb (ix2 p j)) 1 = j := by
    obtain ⟨-, -, -, -, -, -, e, -⟩ := idx_rows t
    apply Fin.ext
    show win1_12.index t (1 : Fin 2) * 64 + 1 * j.val = j.val
    omega
  show _ = convK (V c main_v34) (V c main_v12) (V c main_v24) (V c main_arg5) (V c main_arg7) (V c main_v35)
    ((((cfg1.win 12).blk t).view.emb (ix2 p j)) 0) ((((cfg1.win 12).blk t).view.emb (ix2 p j)) 1)
  rw [hc]
  unfold convK
  simp only [rd0 V c t p _ _ hr, rd1 V c t p _ hr, rd2 V c t p _ _ hr, rd3 V c t, rd4 V c t, rd5 V c t]

/-- What point t writes back into the probabilities output is block t of the whole-array function. -/
theorem flushed13 (c : Dev nD) (t : Fin cfg1.N) :
    (dat1 (F := Ideal) V c).flushed 13 t = ((cfg1.win 13).blk t).view.read (Elt Ideal) (G13 V c) := by
  show (cfg1.win 13).cut (grid1.coords t) ((dat1 V c).after 13 t) = _
  rw [after1_13]
  unfold out1_13
  rw [View.canon_unit_zero hz]
  simp only [View.ld_unit_zero (S := S2000x128) hz, View.ld_unit_zero (S := S2000x1) hz, View.ld_unit_zero (S := S128x64) hz,
    View.ld_unit_zero (S := S1x64) hz, View.ld_unit_zero (S := S64x128) hz, View.ld_unit_zero (S := S1x128) hz,
    View.ld_unit_zero (S := S64x1) hz, View.ld_unit_zero (S := S1x1) hz]
  funext y
  obtain ⟨p, j, rfl⟩ : ∃ (p : Fin 2000) (j : Fin 1), y = ix2 p j := ⟨y 0, y 1, eq_ix2 y⟩
  refine (pay13_at _ _ _ _ _ _ _ _ _ _ _ _ p j).trans ?_
  rw [View.read_apply]
  obtain ⟨-, -, -, -, -, -, -, e0, e1⟩ := idx_rows t
  have hr : ((((cfg1.win 13).blk t).view.emb (ix2 p j)) 0).val = win1_12.index t (0 : Fin 2) * 2000 + 1 * p.val := by
    show win1_13.index t (0 : Fin 2) * 2000 + 1 * p.val = _
    rw [e0]
  have hc : (((cfg1.win 13).blk t).view.emb (ix2 p j)) 1 = j := by
    apply Fin.ext
    show win1_13.index t (1 : Fin 2) * 1 + 1 * j.val = j.val
    omega
  show _ = mlpK (convK (V c main_v34) (V c main_v12) (V c main_v24) (V c main_arg5) (V c main_arg7) (V c main_v35))
    (V c main_arg8) (V c main_v36) (V c main_arg10) (V c main_v37) (V c main_arg12) (V c main_v38)
    ((((cfg1.win 13).blk t).view.emb (ix2 p j)) 0) ((((cfg1.win 13).blk t).view.emb (ix2 p j)) 1)
  rw [hc]
  unfold mlpK denseK convK
  simp only [rd0 V c t p _ _ hr, rd1 V c t p _ hr, rd2 V c t p _ _ hr, rd3 V c t, rd4 V c t, rd5 V c t, rd6 V c t,
    rd7 V c t, rd8 V c t, rd9 V c t, rd10 V c t, rd11 V c t]

/-! ## The blocks fill the outputs -/

/-- An index of the embeddings output lies in point t's block iff each coordinate lies in the block's range. -/
theorem mem_blk12 (t : Fin cfg1.N) (i : S100000x64.Idx) :
    i ∈ ((cfg1.win 12).blk t).view.set ↔ ∀ a : Fin 2, win1_12.index t a * S2000x64.size a ≤ (i a).val
      ∧ (i a).val < win1_12.index t a * S2000x64.size a + S2000x64.size a := by
  show i ∈ ((View.whole main_v39_0).slice (win1_12.rect t)).set ↔ _
  rw [View.set_slice_whole, Rect.mem_set_unit]
  exact Iff.rfl

/-- The same for the probabilities output. -/
theorem mem_blk13 (t : Fin cfg1.N) (i : S100000x1.Idx) :
    i ∈ ((cfg1.win 13).blk t).view.set ↔ ∀ a : Fin 2, win1_13.index t a * S2000x1.size a ≤ (i a).val
      ∧ (i a).val < win1_13.index t a * S2000x1.size a + S2000x1.size a := by
  show i ∈ ((View.whole main_v39_1).slice (win1_13.rect t)).set ↔ _
  rw [View.set_slice_whole, Rect.mem_set_unit]
  exact Iff.rfl

/-- Every row block 0 … 49 of either output is some grid point's. -/
theorem idx_onto12 : ∀ q0 : Fin 50, ∃ t : Fin cfg1.N, win1_12.index t = ![q0.val, 0] :=
  (by decide +kernel : ∀ q0 : Fin 50, ∃ t : Fin grid1.N, win1_12.index t = ![q0.val, 0])

theorem idx_onto13 : ∀ q0 : Fin 50, ∃ t : Fin cfg1.N, win1_13.index t = ![q0.val, 0] :=
  (by decide +kernel : ∀ q0 : Fin 50, ∃ t : Fin grid1.N, win1_13.index t = ![q0.val, 0])

/-- Row r of the embeddings output is written by the point whose row block is r / 2000. -/
theorem cover12 (i : S100000x64.Idx) :
    ∃ t : Fin cfg1.N, (cfg1.win 12).flush t = true ∧ i ∈ ((cfg1.win 12).blk t).view.set := by
  have hi0 : (i 0).val < 100000 := (i 0).isLt
  have hi1 : (i 1).val < 64 := (i 1).isLt
  obtain ⟨t, ht⟩ := idx_onto12 ⟨(i 0).val / 2000, by omega⟩
  have q0 : win1_12.index t (0 : Fin 2) = (i 0).val / 2000 := congrFun ht 0
  have q1 : win1_12.index t (1 : Fin 2) = 0 := congrFun ht 1
  refine ⟨t, flush1_12 t, ?_⟩
  rw [mem_blk12]
  intro a
  match a with
  | ⟨0, _⟩ => show win1_12.index t (0 : Fin 2) * 2000 ≤ (i 0).val ∧ (i 0).val < win1_12.index t (0 : Fin 2) * 2000 + 2000; omega
  | ⟨1, _⟩ => show win1_12.index t (1 : Fin 2) * 64 ≤ (i 1).val ∧ (i 1).val < win1_12.index t (1 : Fin 2) * 64 + 64; omega

/-- Row r of the probabilities output is written by the point whose row block is r / 2000. -/
theorem cover13 (i : S100000x1.Idx) :
    ∃ t : Fin cfg1.N, (cfg1.win 13).flush t = true ∧ i ∈ ((cfg1.win 13).blk t).view.set := by
  have hi0 : (i 0).val < 100000 := (i 0).isLt
  have hi1 : (i 1).val < 1 := (i 1).isLt
  obtain ⟨t, ht⟩ := idx_onto13 ⟨(i 0).val / 2000, by omega⟩
  have q0 : win1_13.index t (0 : Fin 2) = (i 0).val / 2000 := congrFun ht 0
  have q1 : win1_13.index t (1 : Fin 2) = 0 := congrFun ht 1
  refine ⟨t, flush1_13 t, ?_⟩
  rw [mem_blk13]
  intro a
  match a with
  | ⟨0, _⟩ => show win1_13.index t (0 : Fin 2) * 2000 ≤ (i 0).val ∧ (i 0).val < win1_13.index t (0 : Fin 2) * 2000 + 2000; omega
  | ⟨1, _⟩ => show win1_13.index t (1 : Fin 2) * 1 ≤ (i 1).val ∧ (i 1).val < win1_13.index t (1 : Fin 2) * 1 + 1; omega

/-! ## The two outputs after the region -/

theorem final1_12 (c : Dev nD) :
    (dat1 (F := Ideal) V c).arrAt 12 cfg1.N
      = mat (convK (V c main_v34) (V c main_v12) (V c main_v24) (V c main_arg5) (V c main_arg7) (V c main_v35)) :=
  (dat1 (F := Ideal) V c).arrAt_eq_of_cover 12 (G12 V c) (fun t _ => flushed12 V c t) cover12

theorem final1_13 (c : Dev nD) :
    (dat1 (F := Ideal) V c).arrAt 13 cfg1.N
      = mat (mlpK (convK (V c main_v34) (V c main_v12) (V c main_v24) (V c main_arg5) (V c main_arg7) (V c main_v35))
          (V c main_arg8) (V c main_v36) (V c main_arg10) (V c main_v37) (V c main_arg12) (V c main_v38)) :=
  (dat1 (F := Ideal) V c).arrAt_eq_of_cover 13 (G13 V c) (fun t _ => flushed13 V c t) cover13

end Cert.KernelIdeal.Region1
-- ==== Proof.RefValue.lean ====
/-
  The reference program, stage by stage, read at an entry.

  Layer 1, entry (i, j): the neighbour sum a(i,q) is divided by the clipped degree m(i), which reaches the quotient as a
  column repeated along q, so only row i of it matters; the quotients are summed against Wl(q,j); the bias b(j), a
  length-128 array repeated along the rows, is added; then the sum of x(i,q) · Wr(q,j) is added; the result is
  rectified against the pattern of 0.0, which denotes 0. Layer 2 is the same with the hidden layer in place of x and
  no rectification. The perceptron is three products, each followed by a bias repeated along the rows, the first two
  rectified, and the last passed through 1 / (1 + e^(-z)) with 1 written as the pattern of 1.0.

  Each lemma below either says which entry of its operand a repeated (broadcast) array reads, or rewrites one summand
  of a product from the contracted index k to the entries (i, k) and (k, j) it multiplies.
-/
import proofs.«135351_j11381663334735_1_alg».proof.Proof.Gen.ReferenceIdeal.Read
import proofs.«135351_j11381663334735_1_alg».proof.Proof.Spec
import proofs.«135351_j11381663334735_1_alg».proof.Proof.LibDotPlain
import Idealize.ShloMosaic.Lib.ValueIdx
import Idealize.ShloMosaic.Lib.ValueLayout
import Idealize.ShloMosaic.Lib.Pipeline.Value

noncomputable section

open scoped BigOperators

namespace Cert.ReferenceIdeal.RefValue

open Idealize.ShloMosaic Idealize.ShloMosaic.ValueIdx
open Cert.ReferenceIdeal Cert.ReferenceIdeal.Read Cert.Sage

variable (x0 : FVec Ideal S100000x64 .f32) (x1 : IVec S2x1600000 32) (x2 : FVec Ideal S64x128 .f32) (x3 : FVec Ideal S128 .f32)
  (x4 : FVec Ideal S64x128 .f32) (x5 : FVec Ideal S128x64 .f32) (x6 : FVec Ideal S64 .f32) (x7 : FVec Ideal S128x64 .f32)
  (x8 : FVec Ideal S64x128 .f32) (x9 : FVec Ideal S128 .f32) (x10 : FVec Ideal S128x64 .f32) (x11 : FVec Ideal S64 .f32)
  (x12 : FVec Ideal S64x1 .f32) (x13 : FVec Ideal S1 .f32)

/-! ## Layer 1 -/

-- In a product at entry (i, j) the summand k reads the left operand at (i, k) and the right one at (k, j).
theorem l23 (i : Fin 100000) (j : Fin 128) (k : Fin 64) : lidx_main_v23 (ix2 i j) k = ix2 i k :=
  funext fun a => match a with | ⟨0, _⟩ => rfl | ⟨1, _⟩ => rfl
theorem r23 (i : Fin 100000) (j : Fin 128) (k : Fin 64) : ridx_main_v23 (ix2 i j) k = ix2 k j :=
  funext fun a => match a with | ⟨0, _⟩ => rfl | ⟨1, _⟩ => rfl
theorem l27 (i : Fin 100000) (j : Fin 128) (k : Fin 64) : lidx_main_v27 (ix2 i j) k = ix2 i k :=
  funext fun a => match a with | ⟨0, _⟩ => rfl | ⟨1, _⟩ => rfl
theorem r27 (i : Fin 100000) (j : Fin 128) (k : Fin 64) : ridx_main_v27 (ix2 i j) k = ix2 k j :=
  funext fun a => match a with | ⟨0, _⟩ => rfl | ⟨1, _⟩ => rfl

-- The degree column repeated along the features reads row i only; the bias repeated along the rows reads column j only.
theorem d21 (i : Fin 100000) (k : Fin 64) : idx_main_v20 (idx_main_v21 (ix2 i k)) = ix1 i :=
  funext fun a => match a with | ⟨0, _⟩ => rfl
theorem b25 (i : Fin 100000) (j : Fin 128) : idx_main_v24 (idx_main_v25 (ix2 i j)) = ix1 j :=
  funext fun a => match a with | ⟨0, _⟩ => rfl

-- One summand of the first product: the quotient a(i,k) / m(i) times Wl(k,j). One summand of the second: x(i,k) · Wr(k,j).
theorem t23 (i : Fin 100000) (j : Fin 128) (k : Fin 64) :
    val_main_v22 (F := Ideal) x0 x1 (lidx_main_v23 (ix2 i j) k) * x2 (ridx_main_v23 (ix2 i j) k)
      = Ideal.div (val_main_v13 (F := Ideal) x0 x1 (ix2 i k)) (val_main_v19 (F := Ideal) x1 (ix1 i)) * x2 (ix2 k j) := by
  rw [l23, r23, val_main_v22_apply, val_main_v21_apply, val_main_v20_apply, d21]
  rfl
theorem t27 (i : Fin 100000) (j : Fin 128) (k : Fin 64) :
    x0 (lidx_main_v27 (ix2 i j) k) * x4 (ridx_main_v27 (ix2 i j) k) = x0 (ix2 i k) * x4 (ix2 k j) := by
  rw [l27, r27]

/-- The hidden layer at every entry is the rectified convolution entry. -/
theorem ref_hid :
    val_main_v29 (F := Ideal) x0 x1 x2 x3 x4
      = mat (fun i j => max (convR (val_main_v13 (F := Ideal) x0 x1) (val_main_v19 (F := Ideal) x1) x0 x2 x4 x3 i j) 0) := by
  funext e
  obtain ⟨i, j, rfl⟩ : ∃ (i : Fin 100000) (j : Fin 128), e = ix2 i j := ⟨e 0, e 1, eq_ix2 e⟩
  rw [mat_ix2, val_main_v29_apply, val_main_v28_apply, val_main_v26_apply, val_main_v23_apply, val_main_v27_apply,
    val_main_v25_apply, val_main_v24_apply, val_main_call0_v0_apply, val_main_call0_cst_apply, b25,
    Finset.sum_congr rfl (fun k _ => t23 x0 x1 x2 i j k), Finset.sum_congr rfl (fun k _ => t27 x0 x4 i j k)]
  unfold convR
  show max _ (Ideal.ofBits .f32 0x00000000#32) = _
  rw [zero_val]
  rfl

/-! ## Layer 2 -/
theorem l49 (i : Fin 100000) (j : Fin 64) (k : Fin 128) : lidx_main_v49 (ix2 i j) k = ix2 i k :=
  funext fun a => match a with | ⟨0, _⟩ => rfl | ⟨1, _⟩ => rfl
theorem r49 (i : Fin 100000) (j : Fin 64) (k : Fin 128) : ridx_main_v49 (ix2 i j) k = ix2 k j :=
  funext fun a => match a with | ⟨0, _⟩ => rfl | ⟨1, _⟩ => rfl
theorem l53 (i : Fin 100000) (j : Fin 64) (k : Fin 128) : lidx_main_v53 (ix2 i j) k = ix2 i k :=
  funext fun a => match a with | ⟨0, _⟩ => rfl | ⟨1, _⟩ => rfl
theorem r53 (i : Fin 100000) (j : Fin 64) (k : Fin 128) : ridx_main_v53 (ix2 i j) k = ix2 k j :=
  funext fun a => match a with | ⟨0, _⟩ => rfl | ⟨1, _⟩ => rfl
theorem d47 (i : Fin 100000) (k : Fin 128) : idx_main_v46 (idx_main_v47 (ix2 i k)) = ix1 i :=
  funext fun a => match a with | ⟨0, _⟩ => rfl
theorem b51 (i : Fin 100000) (j : Fin 64) : idx_main_v50 (idx_main_v51 (ix2 i j)) = ix1 j :=
  funext fun a => match a with | ⟨0, _⟩ => rfl

theorem t49 (i : Fin 100000) (j : Fin 64) (k : Fin 128) :
    val_main_v48 (F := Ideal) x0 x1 x2 x3 x4 (lidx_main_v49 (ix2 i j) k) * x5 (ridx_main_v49 (ix2 i j) k)
      = Ideal.div (val_main_v39 (F := Ideal) x0 x1 x2 x3 x4 (ix2 i k)) (val_main_v45 (F := Ideal) x1 (ix1 i)) * x5 (ix2 k j) := by
  rw [l49, r49, val_main_v48_apply, val_main_v47_apply, val_main_v46_apply, d47]
  rfl
theorem t53 (i : Fin 100000) (j : Fin 64) (k : Fin 128) :
    val_main_v29 (F := Ideal) x0 x1 x2 x3 x4 (lidx_main_v53 (ix2 i j) k) * x7 (ridx_main_v53 (ix2 i j) k)
      = val_main_v29 (F := Ideal) x0 x1 x2 x3 x4 (ix2 i k) * x7 (ix2 k j) := by
  rw [l53, r53]

/-- The embedding at every entry is the convolution entry over the hidden layer; nothing is rectified. -/
theorem ref_emb :
    val_main_v54 (F := Ideal) x0 x1 x2 x3 x4 x5 x6 x7
      = mat (convR (val_main_v39 (F := Ideal) x0 x1 x2 x3 x4) (val_main_v45 (F := Ideal) x1)
          (val_main_v29 (F := Ideal) x0 x1 x2 x3 x4) x5 x7 x6) := by
  funext e
  obtain ⟨i, j, rfl⟩ : ∃ (i : Fin 100000) (j : Fin 64), e = ix2 i j := ⟨e 0, e 1, eq_ix2 e⟩
  rw [mat_ix2, val_main_v54_apply, val_main_v52_apply, val_main_v49_apply, val_main_v53_apply,
    val_main_v51_apply, val_main_v50_apply, b51,
    Finset.sum_congr rfl (fun k _ => t49 x0 x1 x2 x3 x4 x5 i j k), Finset.sum_congr rfl (fun k _ => t53 x0 x1 x2 x3 x4 x7 i j k)]
  unfold convR
  rfl

/-! ## The perceptron and the logistic output -/
theorem l55 (i : Fin 100000) (j : Fin 128) (k : Fin 64) : lidx_main_v55 (ix2 i j) k = ix2 i k :=
  funext fun a => match a with | ⟨0, _⟩ => rfl | ⟨1, _⟩ => rfl
theorem r55 (i : Fin 100000) (j : Fin 128) (k : Fin 64) : ridx_main_v55 (ix2 i j) k = ix2 k j :=
  funext fun a => match a with | ⟨0, _⟩ => rfl | ⟨1, _⟩ => rfl
theorem l60 (i : Fin 100000) (j : Fin 64) (k : Fin 128) : lidx_main_v60 (ix2 i j) k = ix2 i k :=
  funext fun a => match a with | ⟨0, _⟩ => rfl | ⟨1, _⟩ => rfl
theorem r60 (i : Fin 100000) (j : Fin 64) (k : Fin 128) : ridx_main_v60 (ix2 i j) k = ix2 k j :=
  funext fun a => match a with | ⟨0, _⟩ => rfl | ⟨1, _⟩ => rfl
theorem l65 (i : Fin 100000) (j : Fin 1) (k : Fin 64) : lidx_main_v65 (ix2 i j) k = ix2 i k :=
  funext fun a => match a with | ⟨0, _⟩ => rfl | ⟨1, _⟩ => rfl
theorem r65 (i : Fin 100000) (j : Fin 1) (k : Fin 64) : ridx_main_v65 (ix2 i j) k = ix2 k j :=
  funext fun a => match a with | ⟨0, _⟩ => rfl | ⟨1, _⟩ => rfl
theorem b57 (i : Fin 100000) (j : Fin 128) : idx_main_v56 (idx_main_v57 (ix2 i j)) = ix1 j :=
  funext fun a => match a with | ⟨0, _⟩ => rfl
theorem b62 (i : Fin 100000) (j : Fin 64) : idx_main_v61 (idx_main_v62 (ix2 i j)) = ix1 j :=
  funext fun a => match a with | ⟨0, _⟩ => rfl
-- The last bias has a single entry, and the only column index is 0.
theorem b67 (i : Fin 100000) (j : Fin 1) : idx_main_v66 (idx_main_v67 (ix2 i j)) = ix1 j :=
  funext fun a => match a with
    | ⟨0, _⟩ => Fin.ext (show 0 = j.val by have := j.isLt; omega)

theorem t55 (i : Fin 100000) (j : Fin 128) (k : Fin 64) :
    val_main_v54 (F := Ideal) x0 x1 x2 x3 x4 x5 x6 x7 (lidx_main_v55 (ix2 i j) k) * x8 (ridx_main_v55 (ix2 i j) k)
      = val_main_v54 (F := Ideal) x0 x1 x2 x3 x4 x5 x6 x7 (ix2 i k) * x8 (ix2 k j) := by
  rw [l55, r55]

/-- The first hidden layer of the perceptron at an entry. -/
theorem h1_at (i : Fin 100000) (q : Fin 128) :
    val_main_v59 (F := Ideal) x0 x1 x2 x3 x4 x5 x6 x7 x8 x9 (ix2 i q)
      = max (denseR (fun i j => val_main_v54 (F := Ideal) x0 x1 x2 x3 x4 x5 x6 x7 (ix2 i j)) x8 x9 i q) 0 := by
  rw [val_main_v59_apply, val_main_v58_apply, val_main_v55_apply, val_main_v57_apply, val_main_v56_apply, b57,
    val_main_call1_v0_apply, val_main_call1_cst_apply,
    Finset.sum_congr rfl (fun k _ => t55 x0 x1 x2 x3 x4 x5 x6 x7 x8 i q k)]
  unfold denseR
  show max _ (Ideal.ofBits .f32 0x00000000#32) = _
  rw [zero_val]
  rfl

/-- The quotient 1 / (1 + e^(-z)) spelled with the pattern of 1.0 is the logistic function of z. -/
theorem sig_at (z : Ideal .f32) :
    FloatOps.hostDivf (F := Ideal) (FloatOps.ofBits .f32 0x3F800000#32)
      (FloatOps.addf (FloatOps.ofBits .f32 0x3F800000#32) (FloatOps.hostUnary .exp (FloatOps.hostNegf z)))
      = Ideal.logistic z := by
  rw [logistic_eq]
  rfl

theorem t60 (i : Fin 100000) (j : Fin 64) (k : Fin 128) :
    val_main_v59 (F := Ideal) x0 x1 x2 x3 x4 x5 x6 x7 x8 x9 (lidx_main_v60 (ix2 i j) k) * x10 (ridx_main_v60 (ix2 i j) k)
      = max (denseR (fun i j => val_main_v54 (F := Ideal) x0 x1 x2 x3 x4 x5 x6 x7 (ix2 i j)) x8 x9 i k) 0 * x10 (ix2 k j) := by
  rw [l60, r60, h1_at]

/-- The second hidden layer of the perceptron at an entry. -/
theorem h2_at (i : Fin 100000) (q : Fin 64) :
    val_main_v64 (F := Ideal) x0 x1 x2 x3 x4 x5 x6 x7 x8 x9 x10 x11 (ix2 i q)
      = max (denseR (fun i q => max (denseR (fun i j => val_main_v54 (F := Ideal) x0 x1 x2 x3 x4 x5 x6 x7 (ix2 i j)) x8 x9 i q) 0)
          x10 x11 i q) 0 := by
  rw [val_main_v64_apply, val_main_v63_apply, val_main_v60_apply, val_main_v62_apply, val_main_v61_apply, b62,
    val_main_call2_v0_apply, val_main_call2_cst_apply,
    Finset.sum_congr rfl (fun k _ => t60 x0 x1 x2 x3 x4 x5 x6 x7 x8 x9 x10 i q k)]
  show max _ (Ideal.ofBits .f32 0x00000000#32) = _
  rw [zero_val]
  rfl

theorem t65 (i : Fin 100000) (j : Fin 1) (k : Fin 64) :
    val_main_v64 (F := Ideal) x0 x1 x2 x3 x4 x5 x6 x7 x8 x9 x10 x11 (lidx_main_v65 (ix2 i j) k) * x12 (ridx_main_v65 (ix2 i j) k)
      = max (denseR (fun i q => max (denseR (fun i j => val_main_v54 (F := Ideal) x0 x1 x2 x3 x4 x5 x6 x7 (ix2 i j)) x8 x9 i q) 0)
          x10 x11 i k) 0 * x12 (ix2 k j) := by
  rw [l65, r65, h2_at]

/-- The output at every entry is the perceptron of the embedding row. -/
theorem ref_prob :
    val_main_v74 (F := Ideal) x0 x1 x2 x3 x4 x5 x6 x7 x8 x9 x10 x11 x12 x13
      = mat (mlpR (fun i j => val_main_v54 (F := Ideal) x0 x1 x2 x3 x4 x5 x6 x7 (ix2 i j)) x8 x9 x10 x11 x12 x13) := by
  funext e
  obtain ⟨i, j, rfl⟩ : ∃ (i : Fin 100000) (j : Fin 1), e = ix2 i j := ⟨e 0, e 1, eq_ix2 e⟩
  rw [mat_ix2, val_main_v74_apply, val_main_v73_apply, val_main_cst_11_apply, val_main_v72_apply, val_main_v71_apply,
    val_main_cst_10_apply, val_main_v70_apply, val_main_v69_apply, val_main_v68_apply, val_main_v65_apply,
    val_main_v67_apply, val_main_v66_apply, b67,
    Finset.sum_congr rfl (fun k _ => t65 x0 x1 x2 x3 x4 x5 x6 x7 x8 x9 x10 x11 x12 i j k)]
  rw [sig_at]
  unfold mlpR
  refine congrArg Ideal.logistic ?_
  unfold denseR
  rfl

end Cert.ReferenceIdeal.RefValue
-- ==== Proof.KValue.lean ====
/-
  The two result arrays of the kernel program as the reference's own functions of the arguments.

  Region 0 leaves the rectified first layer in the kernel's arrangement (the neighbour sums times the reciprocal
  clipped degree, the bias last); the reference's hidden layer is the same layer in the other arrangement (the sums divided
  by the clipped degree, the bias in the middle). The clipped degree is a maximum with 1, hence not 0, so the two agree
  entry by entry. The neighbour sums of the hidden layer are then the same term on both sides, the second layer agrees in
  the same way, and the perceptron on top of it differs only in how the biases are held.
-/
import proofs.«135351_j11381663334735_1_alg».proof.Proof.KHost
import proofs.«135351_j11381663334735_1_alg».proof.Proof.KRegion0
import proofs.«135351_j11381663334735_1_alg».proof.Proof.KRegion1
import proofs.«135351_j11381663334735_1_alg».proof.Proof.RefValue

set_option maxRecDepth 16384

noncomputable section

namespace Cert.KernelIdeal.Results

open Idealize.ShloMosaic Idealize.ShloMosaic.TcCoe Idealize.ShloMosaic.ValueIdx Idealize.SL.Sem
open Cert.KernelIdeal Cert.KernelIdeal.Gen Cert.KernelIdeal.Host Cert.Sage
open Cert.ReferenceIdeal.Read Cert.ReferenceIdeal.RefValue

variable (m : (ℓ : Loc nD τ sig) → Buf (Elt Ideal) ℓ) (ρ : Dev nD → PrngReg)

/-! ## The hidden layer -/

/-- Region 0's output is the reference's hidden layer. -/
theorem hid_eq (c : Dev nD) :
    (dat0 (F := Ideal) (V1 m ρ) c).arrAt 6 cfg0.N = val_main_v29 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  rw [Region0.final0 (V1 m ρ) c, ref_hid]
  refine congrArg mat (funext fun i => funext fun j => congrArg (max · 0) ?_)
  rw [V1_v22, V1_arg0, V1_arg2, V1_arg4]
  exact convK_eq_convR _ _ _ _ _ _ _ _ i j (inv_at m ρ c i) (deg_ne _ i) (b1_at m ρ c j)

/-! ## The embeddings -/

/-- The second clipped degree of the reference is the first. -/
theorem deg2 (x1 : IVec Cert.ReferenceIdeal.S2x1600000 32) : val_main_v45 (F := Ideal) x1 = val_main_v19 (F := Ideal) x1 := rfl

/-- Entry (i, j) of the second layer, in the kernel's arrangement over what region 1 is entered with, is the
    reference's embedding entry. -/
theorem conv2_eq (c : Dev nD) (i : Fin 100000) (j : Fin 64) :
    convK (V3 m ρ c main_v34) (V3 m ρ c main_v12) (V3 m ρ c main_v24) (V3 m ρ c main_arg5) (V3 m ρ c main_arg7) (V3 m ρ c main_v35) i j
      = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 i j) := by
  rw [ref_emb, mat_ix2, V3_v34 m ρ c ((W2_arr m ρ c 6).trans (hid_eq m ρ c)), V3_v24, hid_eq, V3_arg5, V3_arg7]
  refine convK_eq_convR _ _ _ _ _ _ _ _ i j ?_ ?_ (b_v35_at m ρ c j)
  · rw [V3_v12, deg2]; exact inv_at m ρ c i
  · rw [deg2]; exact deg_ne _ i

/-- Region 1's first output is the reference's embeddings. -/
theorem emb_eq (c : Dev nD) :
    (dat1 (F := Ideal) (V3 m ρ) c).arrAt 12 cfg1.N = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [Region1.final1_12 (V3 m ρ) c]
  refine Eq.trans (congrArg mat (funext fun i => funext fun j => conv2_eq m ρ c i j)) (mat_eta _)

/-! ## The probabilities -/

/-- Region 1's second output is the reference's probabilities. -/
theorem prob_eq (c : Dev nD) :
    (dat1 (F := Ideal) (V3 m ρ) c).arrAt 13 cfg1.N = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [Region1.final1_13 (V3 m ρ) c, ref_prob]
  refine congrArg mat ?_
  rw [show convK (V3 m ρ c main_v34) (V3 m ρ c main_v12) (V3 m ρ c main_v24) (V3 m ρ c main_arg5) (V3 m ρ c main_arg7) (V3 m ρ c main_v35)
      = (fun i j => val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix2 i j)) from funext fun i => funext fun j => conv2_eq m ρ c i j]
  rw [V3_arg8, V3_arg10, V3_arg12]
  exact mlpK_eq_mlpR _ _ _ _ _ _ _ _ _ _ (b_v36_at m ρ c) (b_v37_at m ρ c) (b_v38_at m ρ c)

/-! ## The result buffers at the last boundary -/

theorem res0 (c : Dev nD) : W4 m ρ c (Proc.devRef .tc main_v39_0) = val_main_v54 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_arr m ρ c 12).trans (emb_eq m ρ c)

theorem res1 (c : Dev nD) : W4 m ρ c (Proc.devRef .tc main_v39_1) = val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) :=
  (W4_arr m ρ c 13).trans (prob_eq m ρ c)

end Cert.KernelIdeal.Results
-- ==== Proof.lean ====
/-
  A two-layer mean-aggregating graph convolution with a three-layer perceptron and a logistic output, as two blocked
  kernels between host gathers and scatter-adds, against the same network written as whole-array operations.

  Over the extended reals the two programs compute, node by node, the same numbers. The neighbour sums and the in-degree
  are the same scatter-adds of the same gathers on both sides. The kernels multiply a neighbour sum by the precomputed
  1 / max(deg, 1) where the reference divides by max(deg, 1): the clipped degree is at least 1, hence not 0, and for a
  nonzero divisor the quotient IS that product. The kernels add the bias after both matrix products, the reference
  between them: addition of extended reals is commutative and associative. The changes of float format inside the
  kernels are the identity, a product into a zero accumulator and the host's product are the same plain sum, and the
  kernels' one-operation logistic function is the quotient 1 / (1 + e^(-z)) the reference spells out. No law is used that
  needs finite numbers, so the precondition is never opened.

  The runs: each kernel program's frame is the generated one; the idealized kernel's run with its two result arrays named
  is the same launch read at two more buffers; each region's output array is one function of the arrays the region was
  entered with, because the 50 row blocks are disjoint, fill the output, and a block's entry depends on its own row only;
  the reference's run is the generated one.
-/
import proofs.«135351_j11381663334735_1_alg».proof.Defs
import proofs.«135351_j11381663334735_1_alg».proof.Proof.Gen.Kernel
import proofs.«135351_j11381663334735_1_alg».proof.Proof.Gen.Kernel.Frame
import proofs.«135351_j11381663334735_1_alg».proof.Proof.Gen.KernelIdeal
import proofs.«135351_j11381663334735_1_alg».proof.Proof.Gen.KernelIdeal.Frame
import proofs.«135351_j11381663334735_1_alg».proof.Proof.Gen.ReferenceIdeal
import proofs.«135351_j11381663334735_1_alg».proof.Proof.Gen.ReferenceIdeal.Run
import proofs.«135351_j11381663334735_1_alg».proof.Proof.Gen.ReferenceIdeal.Read
import proofs.«135351_j11381663334735_1_alg».proof.Proof.Gen.Pre_finite_inputs
import proofs.«135351_j11381663334735_1_alg».proof.Proof.KRun
import proofs.«135351_j11381663334735_1_alg».proof.Proof.KValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.Gen.frame m ρ

/-- The idealized kernel program runs and keeps its arguments. -/
theorem frame_ki : Cert.frame_KernelIdeal := fun m ρ _ => Cert.KernelIdeal.Gen.frame m ρ

/-- The idealized reference runs and keeps its arguments: its run, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end with the embeddings and the probabilities at
    the reference's two stages of the arguments. -/
theorem algebraic : Cert.algebraic_KernelIdeal_ReferenceIdeal := by
  intro m ρ m' ρ' _ hagree
  refine ⟨fun c => Cert.ReferenceIdeal.Read.val_main_v54 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.GenRun.run_results (F := Ideal) m ρ)
    obtain ⟨h0, h1, hargs⟩ := h c
    exact ⟨h0.trans (Cert.KernelIdeal.Results.res0 m ρ c), h1.trans (Cert.KernelIdeal.Results.res1 m ρ c), hargs⟩
  · refine (θ_run Cert.ReferenceIdeal.defs _ _).mono (fun r h c => ?_) (Cert.ReferenceIdeal.Value.run (F := Ideal) m' ρ')
    obtain ⟨h0, h1, hargs⟩ := h c
    obtain ⟨e0, e1, e2, e3, e4, e5, e6, e7, e8, e9, e10, e11, e12, e13⟩ := hagree c
    refine ⟨?_, ?_, hargs⟩
    · rw [h0, Cert.ReferenceIdeal.Read.val_main_v54_eq, e0, e1, e2, e3, e4, e5, e6, e7]
    · rw [h1, Cert.ReferenceIdeal.Read.val_main_v74_eq, e0, e1, e2, e3, e4, e5, e6, e7, e8, e9, e10, e11, e12, e13]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
